-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S512x512 : Shape := ⟨2, ![512, 512]⟩
abbrev S512 : Shape := ⟨1, ![512]⟩
abbrev S256x640 : Shape := ⟨2, ![256, 640]⟩
abbrev S512x256 : Shape := ⟨2, ![512, 256]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S256x640 : S_.BroadcastsInDim S256x640 (![] : Fin 0 → Fin S256x640.rank)
  reducesTo_S256x640_S_d0_1 : S256x640.ReducesTo [0, 1] S_
  bcast_S_S512x256 : S_.BroadcastsInDim S512x256 (![] : Fin 0 → Fin S512x256.rank)
  reducesTo_S512x256_S_d0_1 : S512x256.ReducesTo [0, 1] S_

variable [Facts]

def fn_part4 {F : FTy → Type} [FloatOps F] (main_arg14 : FVec F S256 .f32) (main_arg15 : FVec F S512x256 .f32) (main_arg16 : FVec F S512 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S512x256 .f32 := Host.absf main_arg15
  let main_cst_28 : FVec F S_ .f32 := constant S_ .f32 0x7F800000#32
  let main_v75 : FVec F S512x256 .f32 := broadcastInDim S512x256 ![] bcast_S_S512x256 main_cst_28
  let main_v76 : IVec S512x256 1 := cmpf .olt main_v74 main_v75
  let main_c_29 : IVec S_ 1 := constantI S_ 1 1#1
  let main_v77 : IVec S_ 1 := (fun x v => Host.reduce IntOp.andi x v reducesTo_S512x256_S_d0_1 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  main_v83

def fn_part3 {F : FTy → Type} [FloatOps F] (main_arg11 : FVec F S512x512 .f32) (main_arg12 : FVec F S512 .f32) (main_arg13 : FVec F S256x640 .f32) (main_arg14 : FVec F S256 .f32) (main_arg15 : FVec F S512x256 .f32) (main_arg16 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S256x640 .f32 := Host.absf main_arg13
  let main_cst_24 : FVec F S_ .f32 := constant S_ .f32 0x7F800000#32
  let main_v65 : FVec F S256x640 .f32 := broadcastInDim S256x640 ![] bcast_S_S256x640 main_cst_24
  let main_v66 : IVec S256x640 1 := cmpf .olt main_v64 main_v65
  let main_c_25 : IVec S_ 1 := constantI S_ 1 1#1
  let main_v67 : IVec S_ 1 := (fun x v => Host.reduce IntOp.andi x v reducesTo_S256x640_S_d0_1 h_S_) main_v66 main_c_25
  fn_part4 (F := F) main_arg14 main_arg15 main_arg16 main_v63 main_v67

def fn_part2 {F : FTy → Type} [FloatOps F] (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S256x640 .f32) (main_arg14 : FVec F S256 .f32) (main_arg15 : FVec F S512x256 .f32) (main_arg16 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_arg15 main_arg16 main_v48 main_v49 main_v50

def fn_part1 {F : FTy → Type} [FloatOps F] (main_arg4 : FVec F S128 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S256x640 .f32) (main_arg14 : FVec F S256 .f32) (main_arg15 : FVec F S512x256 .f32) (main_arg16 : FVec F S512 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S1024x512 .f32) (main_arg1 : FVec F S256x512 .f32) (main_arg2 : FVec F S256 .f32) (main_arg3 : FVec F S128x256 .f32) (main_arg4 : FVec F S128 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S256x640 .f32) (main_arg14 : FVec F S256 .f32) (main_arg15 : FVec F S512x256 .f32) (main_arg16 : FVec F S512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S1024x512 : Shape := ⟨2, ![1024, 512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S512x512 : Shape := ⟨2, ![512, 512]⟩
abbrev S512 : Shape := ⟨1, ![512]⟩
abbrev S256x640 : Shape := ⟨2, ![256, 640]⟩
abbrev S512x256 : Shape := ⟨2, ![512, 256]⟩
abbrev S256x128 : Shape := ⟨2, ![256, 128]⟩
abbrev S1x256 : Shape := ⟨2, ![1, 256]⟩
abbrev S1x128 : Shape := ⟨2, ![1, 128]⟩
abbrev S1x512 : Shape := ⟨2, ![1, 512]⟩
abbrev S1024x256 : Shape := ⟨2, ![1024, 256]⟩
abbrev S1024x128 : Shape := ⟨2, ![1024, 128]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 28
  | .vmem => 19
  | .smem => 0
  | _ => 0

abbrev bufTy : (tb : Table) → Fin (tcTables nBuf tb) → BufTy
  | .hbm, ⟨0, _⟩ => ⟨S1024x512, .f32⟩
  | .hbm, ⟨1, _⟩ => ⟨S256x512, .f32⟩
  | .hbm, ⟨2, _⟩ => ⟨S256, .f32⟩
  | .hbm, ⟨3, _⟩ => ⟨S128x256, .f32⟩
  | .hbm, ⟨4, _⟩ => ⟨S128, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S256x640, .f32⟩
  | .hbm, ⟨14, _⟩ => ⟨S256, .f32⟩
  | .hbm, ⟨15, _⟩ => ⟨S512x256, .f32⟩
  | .hbm, ⟨16, _⟩ => ⟨S512, .f32⟩
  | .hbm, ⟨17, _⟩ => ⟨S256x128, .f32⟩
  | .hbm, ⟨18, _⟩ => ⟨S256x512, .f32⟩
  | .hbm, ⟨19, _⟩ => ⟨S1x256, .f32⟩
  | .hbm, ⟨20, _⟩ => ⟨S1x128, .f32⟩
  | .hbm, ⟨21, _⟩ => ⟨S1x512, .f32⟩
  | .hbm, ⟨22, _⟩ => ⟨S1x512, .f32⟩
  | .hbm, ⟨23, _⟩ => ⟨S1x512, .f32⟩
  | .hbm, ⟨24, _⟩ => ⟨S1x512, .f32⟩
  | .hbm, ⟨25, _⟩ => ⟨S1x256, .f32⟩
  | .hbm, ⟨26, _⟩ => ⟨S1x512, .f32⟩
  | .hbm, ⟨27, _⟩ => ⟨S1024x512, .f32⟩
  | .local _ .vmem, ⟨0, _⟩ => ⟨S1024x512, .f32⟩
  | .local _ .vmem, ⟨1, _⟩ => ⟨S256x512, .f32⟩
  | .local _ .vmem, ⟨2, _⟩ => ⟨S1x256, .f32⟩
  | .local _ .vmem, ⟨3, _⟩ => ⟨S128x256, .f32⟩
  | .local _ .vmem, ⟨4, _⟩ => ⟨S1x128, .f32⟩
  | .local _ .vmem, ⟨5, _⟩ => ⟨S512x512, .f32⟩
  | .local _ .vmem, ⟨6, _⟩ => ⟨S1x512, .f32⟩
  | .local _ .vmem, ⟨7, _⟩ => ⟨S512x512, .f32⟩
  | .local _ .vmem, ⟨8, _⟩ => ⟨S1x512, .f32⟩
  | .local _ .vmem, ⟨9, _⟩ => ⟨S512x512, .f32⟩
  | .local _ .vmem, ⟨10, _⟩ => ⟨S1x512, .f32⟩
  | .local _ .vmem, ⟨11, _⟩ => ⟨S512x512, .f32⟩
  | .local _ .vmem, ⟨12, _⟩ => ⟨S1x512, .f32⟩
  | .local _ .vmem, ⟨13, _⟩ => ⟨S256x128, .f32⟩
  | .local _ .vmem, ⟨14, _⟩ => ⟨S256x512, .f32⟩
  | .local _ .vmem, ⟨15, _⟩ => ⟨S1x256, .f32⟩
  | .local _ .vmem, ⟨16, _⟩ => ⟨S512x256, .f32⟩
  | .local _ .vmem, ⟨17, _⟩ => ⟨S1x512, .f32⟩
  | .local _ .vmem, ⟨18, _⟩ => ⟨S1024x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S256x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S256x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S512x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1024x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

class Facts₀ : Prop where
  slices_S256x640_S256x128_0_0 : S256x640.Slices ![0, 0] S256x128
  slices_S256x640_S256x512_0_128 : S256x640.Slices ![0, 128] S256x512
  shapeCasts_S256_S1x256 : S256.ShapeCasts S1x256
  shapeCasts_S128_S1x128 : S128.ShapeCasts S1x128
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  inb_S256x512_S256x512_0_0 : ∀ a, (![0, 0] : Fin 2 → Nat) a + S256x512.size a ≤ S256x512.size a
  h_S256x512 : 0 < S256x512.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S128x256_S128x256_0_0 : ∀ a, (![0, 0] : Fin 2 → Nat) a + S128x256.size a ≤ S128x256.size a
  h_S128x256 : 0 < S128x256.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  slices_S1024x512_o0_0_S1024x64 : S1024x512.Slices ![0, 0] S1024x64
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  slices_S1024x512_o0_64_S1024x64 : S1024x512.Slices ![0, 64] S1024x64
  slices_S1024x512_o0_128_S1024x64 : S1024x512.Slices ![0, 128] S1024x64
  slices_S1024x512_o0_192_S1024x64 : S1024x512.Slices ![0, 192] S1024x64
  slices_S1024x512_o0_256_S1024x64 : S1024x512.Slices ![0, 256] S1024x64
  slices_S1024x512_o0_320_S1024x64 : S1024x512.Slices ![0, 320] S1024x64
  slices_S1024x512_o0_384_S1024x64 : S1024x512.Slices ![0, 384] S1024x64
  slices_S1024x512_o0_448_S1024x64 : S1024x512.Slices ![0, 448] S1024x64
  concatenates_S1024x64_S1024x64_S1024x64_S1024x64_S1024x64_S1024x64_S1024x64_S1024x64_S1024x512_d1 : Shape.Concatenates [S1024x64, S1024x64, S1024x64, S1024x64, S1024x64, S1024x64, S1024x64, S1024x64] S1024x512 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S256x512_S256x512 : S256x512.ShapeCasts S256x512
  inb_S512x256_S512x256_0_0 : ∀ a, (![0, 0] : Fin 2 → Nat) a + S512x256.size a ≤ S512x256.size a
  h_S512x256 : 0 < S512x256.numel
  dot_S1024x512_S256x512_S1024x256_1_1_0_0_n_n_wf : DotDims.WF S1024x512 S256x512 S1024x256 [1] [1] [0] [0] [] []
  dot_S1024x256_S128x256_S1024x128_1_1_0_0_n_n_wf : DotDims.WF S1024x256 S128x256 S1024x128 [1] [1] [0] [0] [] []
  dot_S1024x512_S512x512_S1024x512_1_1_0_0_n_n_wf : DotDims.WF S1024x512 S512x512 S1024x512 [1] [1] [0] [0] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  dot_S1024x128_S256x128_S1024x256_1_1_0_0_n_n_wf : DotDims.WF S1024x128 S256x128 S1024x256 [1] [1] [0] [0] [] []
  dot_S1024x256_S512x256_S1024x512_1_1_0_0_n_n_wf : DotDims.WF S1024x256 S512x256 S1024x512 [1] [1] [0] [0] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole
  hstage0_10 : ∀ j, (stage0_10 j).IsWhole
  hstage0_11 : ∀ j, (stage0_11 j).IsWhole
  hstage0_12 : ∀ j, (stage0_12 j).IsWhole
  hstage0_13 : ∀ j, (stage0_13 j).IsWhole
  hstage0_14 : ∀ j, (stage0_14 j).IsWhole
  hstage0_15 : ∀ j, (stage0_15 j).IsWhole
  hstage0_16 : ∀ j, (stage0_16 j).IsWhole
  hstage0_17 : ∀ j, (stage0_17 j).IsWhole
  hstage0_18 : ∀ j, (stage0_18 j).IsWhole

variable [Facts₀]

def dot_S1024x512_S256x512_S1024x256_1_1_0_0_n_n : DotDims S1024x512 S256x512 S1024x256 where
  lhsContracting := [1]
  rhsContracting := [1]
  lhsNonContracting := [0]
  rhsNonContracting := [0]
  lhsBatch := []
  rhsBatch := []
  wf := dot_S1024x512_S256x512_S1024x256_1_1_0_0_n_n_wf
def dot_S1024x256_S128x256_S1024x128_1_1_0_0_n_n : DotDims S1024x256 S128x256 S1024x128 where
  lhsContracting := [1]
  rhsContracting := [1]
  lhsNonContracting := [0]
  rhsNonContracting := [0]
  lhsBatch := []
  rhsBatch := []
  wf := dot_S1024x256_S128x256_S1024x128_1_1_0_0_n_n_wf
def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x128_S256x128_S1024x256_1_1_0_0_n_n : DotDims S1024x128 S256x128 S1024x256 where
  lhsContracting := [1]
  rhsContracting := [1]
  lhsNonContracting := [0]
  rhsNonContracting := [0]
  lhsBatch := []
  rhsBatch := []
  wf := dot_S1024x128_S256x128_S1024x256_1_1_0_0_n_n_wf
def dot_S1024x256_S512x256_S1024x512_1_1_0_0_n_n : DotDims S1024x256 S512x256 S1024x512 where
  lhsContracting := [1]
  rhsContracting := [1]
  lhsNonContracting := [0]
  rhsNonContracting := [0]
  lhsBatch := []
  rhsBatch := []
  wf := dot_S1024x256_S512x256_S1024x512_1_1_0_0_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_v3) false false (stage0_4 0) (sem0_4 0) (Memref.isWhole_whole _) (hstage0_4 0)

abbrev win0_5 : Pipeline.Window sig grid0 :=
  Pipeline.Window.whole (Memref.whole main_arg5) false false (stage0_5 0) (sem0_5 0) (Memref.isWhole_whole _) (hstage0_5 0)

abbrev win0_6 : Pipeline.Window sig grid0 :=
  Pipeline.Window.whole (Memref.whole main_v4) false false (stage0_6 0) (sem0_6 0) (Memref.isWhole_whole _) (hstage0_6 0)

abbrev win0_7 : Pipeline.Window sig grid0 :=
  Pipeline.Window.whole (Memref.whole main_arg7) false false (stage0_7 0) (sem0_7 0) (Memref.isWhole_whole _) (hstage0_7 0)

abbrev win0_8 : Pipeline.Window sig grid0 :=
  Pipeline.Window.whole (Memref.whole main_v5) false false (stage0_8 0) (sem0_8 0) (Memref.isWhole_whole _) (hstage0_8 0)

abbrev win0_9 : Pipeline.Window sig grid0 :=
  Pipeline.Window.whole (Memref.whole main_arg9) false false (stage0_9 0) (sem0_9 0) (Memref.isWhole_whole _) (hstage0_9 0)

abbrev win0_10 : Pipeline.Window sig grid0 :=
  Pipeline.Window.whole (Memref.whole main_v6) false false (stage0_10 0) (sem0_10 0) (Memref.isWhole_whole _) (hstage0_10 0)

abbrev win0_11 : Pipeline.Window sig grid0 :=
  Pipeline.Window.whole (Memref.whole main_arg11) false false (stage0_11 0) (sem0_11 0) (Memref.isWhole_whole _) (hstage0_11 0)

abbrev win0_12 : Pipeline.Window sig grid0 :=
  Pipeline.Window.whole (Memref.whole main_v7) false false (stage0_12 0) (sem0_12 0) (Memref.isWhole_whole _) (hstage0_12 0)

abbrev win0_13 : Pipeline.Window sig grid0 :=
  Pipeline.Window.whole (Memref.whole main_v0) false false (stage0_13 0) (sem0_13 0) (Memref.isWhole_whole _) (hstage0_13 0)

abbrev win0_14 : Pipeline.Window sig grid0 :=
  Pipeline.Window.whole (Memref.whole main_v1) false false (stage0_14 0) (sem0_14 0) (Memref.isWhole_whole _) (hstage0_14 0)

abbrev win0_15 : Pipeline.Window sig grid0 :=
  Pipeline.Window.whole (Memref.whole main_v8) false false (stage0_15 0) (sem0_15 0) (Memref.isWhole_whole _) (hstage0_15 0)

abbrev win0_16 : Pipeline.Window sig grid0 :=
  Pipeline.Window.whole (Memref.whole main_arg15) false false (stage0_16 0) (sem0_16 0) (Memref.isWhole_whole _) (hstage0_16 0)

abbrev win0_17 : Pipeline.Window sig grid0 :=
  Pipeline.Window.whole (Memref.whole main_v9) false false (stage0_17 0) (sem0_17 0) (Memref.isWhole_whole _) (hstage0_17 0)

abbrev win0_18 : Pipeline.Window sig grid0 :=
  Pipeline.Window.whole (Memref.whole main_v10) true false (stage0_18 0) (sem0_18 0) (Memref.isWhole_whole _) (hstage0_18 0)

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S1024x512 : Shape := ⟨2, ![1024, 512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S512x512 : Shape := ⟨2, ![512, 512]⟩
abbrev S512 : Shape := ⟨1, ![512]⟩
abbrev S256x640 : Shape := ⟨2, ![256, 640]⟩
abbrev S512x256 : Shape := ⟨2, ![512, 256]⟩
abbrev S1024x256 : Shape := ⟨2, ![1024, 256]⟩
abbrev S1x256 : Shape := ⟨2, ![1, 256]⟩
abbrev S_ : Shape := ⟨0, ![]⟩
abbrev S256x128 : Shape := ⟨2, ![256, 128]⟩
abbrev S1024x128 : Shape := ⟨2, ![1024, 128]⟩
abbrev S1x128 : Shape := ⟨2, ![1, 128]⟩
abbrev S1x512 : Shape := ⟨2, ![1, 512]⟩
abbrev S1024x8x64 : Shape := ⟨3, ![1024, 8, 64]⟩
abbrev S8x1024x64 : Shape := ⟨3, ![8, 1024, 64]⟩
abbrev S8x1024x1024 : Shape := ⟨3, ![8, 1024, 1024]⟩
abbrev S8x1024 : Shape := ⟨2, ![8, 1024]⟩
abbrev S8x1024x1 : Shape := ⟨3, ![8, 1024, 1]⟩
abbrev S1024x640 : Shape := ⟨2, ![1024, 640]⟩
abbrev S640x256 : Shape := ⟨2, ![640, 256]⟩

abbrev nBuf : Space → Nat
  | .hbm => 95
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S256x512, .f32⟩
  | .hbm, ⟨2, _⟩ => ⟨S256, .f32⟩
  | .hbm, ⟨3, _⟩ => ⟨S128x256, .f32⟩
  | .hbm, ⟨4, _⟩ => ⟨S128, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S256x640, .f32⟩
  | .hbm, ⟨14, _⟩ => ⟨S256, .f32⟩
  | .hbm, ⟨15, _⟩ => ⟨S512x256, .f32⟩
  | .hbm, ⟨16, _⟩ => ⟨S512, .f32⟩
  | .hbm, ⟨17, _⟩ => ⟨S512x256, .f32⟩
  | .hbm, ⟨18, _⟩ => ⟨S1024x256, .f32⟩
  | .hbm, ⟨19, _⟩ => ⟨S1x256, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S256x128, .f32⟩
  | .hbm, ⟨26, _⟩ => ⟨S1024x128, .f32⟩
  | .hbm, ⟨27, _⟩ => ⟨S1x128, .f32⟩
  | .hbm, ⟨28, _⟩ => ⟨S1024x128, .f32⟩
  | .hbm, ⟨29, _⟩ => ⟨S1024x128, .f32⟩
  | .hbm, ⟨30, _⟩ => ⟨S_, .f32⟩
  | .hbm, ⟨31, _⟩ => ⟨S1024x128, .f32⟩
  | .hbm, ⟨32, _⟩ => ⟨S1024x128, .f32⟩
  | .hbm, ⟨33, _⟩ => ⟨S512x512, .f32⟩
  | .hbm, ⟨34, _⟩ => ⟨S1024x512, .f32⟩
  | .hbm, ⟨35, _⟩ => ⟨S1x512, .f32⟩
  | .hbm, ⟨36, _⟩ => ⟨S1024x512, .f32⟩
  | .hbm, ⟨37, _⟩ => ⟨S1024x512, .f32⟩
  | .hbm, ⟨38, _⟩ => ⟨S512x512, .f32⟩
  | .hbm, ⟨39, _⟩ => ⟨S1024x512, .f32⟩
  | .hbm, ⟨40, _⟩ => ⟨S1x512, .f32⟩
  | .hbm, ⟨41, _⟩ => ⟨S1024x512, .f32⟩
  | .hbm, ⟨42, _⟩ => ⟨S1024x512, .f32⟩
  | .hbm, ⟨43, _⟩ => ⟨S512x512, .f32⟩
  | .hbm, ⟨44, _⟩ => ⟨S1024x512, .f32⟩
  | .hbm, ⟨45, _⟩ => ⟨S1x512, .f32⟩
  | .hbm, ⟨46, _⟩ => ⟨S1024x512, .f32⟩
  | .hbm, ⟨47, _⟩ => ⟨S1024x512, .f32⟩
  | .hbm, ⟨48, _⟩ => ⟨S1024x8x64, .f32⟩
  | .hbm, ⟨49, _⟩ => ⟨S8x1024x64, .f32⟩
  | .hbm, ⟨50, _⟩ => ⟨S1024x8x64, .f32⟩
  | .hbm, ⟨51, _⟩ => ⟨S8x1024x64, .f32⟩
  | .hbm, ⟨52, _⟩ => ⟨S1024x8x64, .f32⟩
  | .hbm, ⟨53, _⟩ => ⟨S8x1024x64, .f32⟩
  | .hbm, ⟨54, _⟩ => ⟨S8x1024x1024, .f32⟩
  | .hbm, ⟨55, _⟩ => ⟨S_, .f32⟩
  | .hbm, ⟨56, _⟩ => ⟨S8x1024x1024, .f32⟩
  | .hbm, ⟨57, _⟩ => ⟨S8x1024x1024, .f32⟩
  | .hbm, ⟨58, _⟩ => ⟨S_, .f32⟩
  | .hbm, ⟨59, _⟩ => ⟨S8x1024, .f32⟩
  | .hbm, ⟨60, _⟩ => ⟨S_, .f32⟩
  | .hbm, ⟨61, _⟩ => ⟨S8x1024, .f32⟩
  | .hbm, ⟨62, _⟩ => ⟨S8x1024, .f32⟩
  | .hbm, ⟨63, _⟩ => ⟨S8x1024x1, .f32⟩
  | .hbm, ⟨64, _⟩ => ⟨S8x1024x1024, .f32⟩
  | .hbm, ⟨65, _⟩ => ⟨S8x1024x1024, .f32⟩
  | .hbm, ⟨66, _⟩ => ⟨S8x1024x1024, .f32⟩
  | .hbm, ⟨67, _⟩ => ⟨S_, .f32⟩
  | .hbm, ⟨68, _⟩ => ⟨S8x1024, .f32⟩
  | .hbm, ⟨69, _⟩ => ⟨S8x1024x1, .f32⟩
  | .hbm, ⟨70, _⟩ => ⟨S8x1024x1024, .f32⟩
  | .hbm, ⟨71, _⟩ => ⟨S8x1024x1024, .f32⟩
  | .hbm, ⟨72, _⟩ => ⟨S8x1024x64, .f32⟩
  | .hbm, ⟨73, _⟩ => ⟨S1024x8x64, .f32⟩
  | .hbm, ⟨74, _⟩ => ⟨S1024x512, .f32⟩
  | .hbm, ⟨75, _⟩ => ⟨S512x512, .f32⟩
  | .hbm, ⟨76, _⟩ => ⟨S1024x512, .f32⟩
  | .hbm, ⟨77, _⟩ => ⟨S1x512, .f32⟩
  | .hbm, ⟨78, _⟩ => ⟨S1024x512, .f32⟩
  | .hbm, ⟨79, _⟩ => ⟨S1024x512, .f32⟩
  | .hbm, ⟨80, _⟩ => ⟨S1024x640, .f32⟩
  | .hbm, ⟨81, _⟩ => ⟨S640x256, .f32⟩
  | .hbm, ⟨82, _⟩ => ⟨S1024x256, .f32⟩
  | .hbm, ⟨83, _⟩ => ⟨S1x256, .f32⟩
  | .hbm, ⟨84, _⟩ => ⟨S1024x256, .f32⟩
  | .hbm, ⟨85, _⟩ => ⟨S1024x256, .f32⟩
  | .hbm, ⟨86, _⟩ => ⟨S_, .f32⟩
  | .hbm, ⟨87, _⟩ => ⟨S1024x256, .f32⟩
  | .hbm, ⟨88, _⟩ => ⟨S1024x256, .f32⟩
  | .hbm, ⟨89, _⟩ => ⟨S256x512, .f32⟩
  | .hbm, ⟨90, _⟩ => ⟨S1024x512, .f32⟩
  | .hbm, ⟨91, _⟩ => ⟨S1x512, .f32⟩
  | .hbm, ⟨92, _⟩ => ⟨S1024x512, .f32⟩
  | .hbm, ⟨93, _⟩ => ⟨S1024x512, .f32⟩
  | .hbm, ⟨94, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call0_cst : Ref sig .tc := ⟨.hbm, 22, rfl⟩
abbrev main_call0_v0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_call1_cst : Ref sig .tc := ⟨.hbm, 30, rfl⟩
abbrev main_call1_v0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst : Ref sig .tc := ⟨.hbm, 55, rfl⟩
abbrev main_v34 : Ref sig .tc := ⟨.hbm, 56, rfl⟩
abbrev main_v35 : Ref sig .tc := ⟨.hbm, 57, rfl⟩
abbrev main_cst_0 : Ref sig .tc := ⟨.hbm, 58, rfl⟩
abbrev main_v36 : Ref sig .tc := ⟨.hbm, 59, rfl⟩
abbrev main_cst_1 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_2 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_call2_cst : Ref sig .tc := ⟨.hbm, 86, rfl⟩
abbrev main_call2_v0 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩

abbrev nD : Nat := 1
abbrev τ : Topo := Topo.v7x

variable {F : FTy → Type} [FloatOps F]

class Facts₀ : Prop where
  transposes_S256x512_S512x256_1_0 : S256x512.Transposes [1, 0] S512x256
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  bcast_S_S1024x256 : S_.BroadcastsInDim S1024x256 (![] : Fin 0 → Fin S1024x256.rank)
  transposes_S128x256_S256x128_1_0 : S128x256.Transposes [1, 0] S256x128
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  transposes_S512x512_S512x512_1_0 : S512x512.Transposes [1, 0] S512x512
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  shapeCasts_S1024x512_S1024x8x64 : S1024x512.ShapeCasts S1024x8x64
  transposes_S1024x8x64_S8x1024x64_1_0_2 : S1024x8x64.Transposes [1, 0, 2] S8x1024x64
  bcast_S_S8x1024x1024 : S_.BroadcastsInDim S8x1024x1024 (![] : Fin 0 → Fin S8x1024x1024.rank)
  reducesTo_S8x1024x1024_S8x1024_d2 : S8x1024x1024.ReducesTo [2] S8x1024
  h_S_ : 0 < S_.numel
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  bcast_S8x1024x1_S8x1024x1024_0_1_2 : S8x1024x1.BroadcastsInDim S8x1024x1024 (![0, 1, 2] : Fin 3 → Fin S8x1024x1024.rank)
  transposes_S8x1024x64_S1024x8x64_1_0_2 : S8x1024x64.Transposes [1, 0, 2] S1024x8x64
  shapeCasts_S1024x8x64_S1024x512 : S1024x8x64.ShapeCasts S1024x512
  concatenates_S1024x128_S1024x512_S1024x640_d1 : Shape.Concatenates [S1024x128, S1024x512] S1024x640 1
  transposes_S256x640_S640x256_1_0 : S256x640.Transposes [1, 0] S640x256
  transposes_S512x256_S256x512_1_0 : S512x256.Transposes [1, 0] S256x512
  dot_S1024x512_S512x256_S1024x256_1_0_0_1_n_n_wf : DotDims.WF S1024x512 S512x256 S1024x256 [1] [0] [0] [1] [] []
  dot_S1024x256_S256x128_S1024x128_1_0_0_1_n_n_wf : DotDims.WF S1024x256 S256x128 S1024x128 [1] [0] [0] [1] [] []
  dot_S1024x512_S512x512_S1024x512_1_0_0_1_n_n_wf : DotDims.WF S1024x512 S512x512 S1024x512 [1] [0] [0] [1] [] []
  dot_S8x1024x64_S8x1024x64_S8x1024x1024_2_2_1_1_0_0_wf : DotDims.WF S8x1024x64 S8x1024x64 S8x1024x1024 [2] [2] [1] [1] [0] [0]
  dot_S8x1024x1024_S8x1024x64_S8x1024x64_2_1_1_2_0_0_wf : DotDims.WF S8x1024x1024 S8x1024x64 S8x1024x64 [2] [1] [1] [2] [0] [0]
  dot_S1024x640_S640x256_S1024x256_1_0_0_1_n_n_wf : DotDims.WF S1024x640 S640x256 S1024x256 [1] [0] [0] [1] [] []
  dot_S1024x256_S256x512_S1024x512_1_0_0_1_n_n_wf : DotDims.WF S1024x256 S256x512 S1024x512 [1] [0] [0] [1] [] []

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S8x1024x64_S8x1024x64_S8x1024x1024_2_2_1_1_0_0 : DotDims S8x1024x64 S8x1024x64 S8x1024x1024 where
  lhsContracting := [2]
  rhsContracting := [2]
  lhsNonContracting := [1]
  rhsNonContracting := [1]
  lhsBatch := [0]
  rhsBatch := [0]
  wf := dot_S8x1024x64_S8x1024x64_S8x1024x1024_2_2_1_1_0_0_wf
def dot_S8x1024x1024_S8x1024x64_S8x1024x64_2_1_1_2_0_0 : DotDims S8x1024x1024 S8x1024x64 S8x1024x64 where
  lhsContracting := [2]
  rhsContracting := [1]
  lhsNonContracting := [1]
  rhsNonContracting := [2]
  lhsBatch := [0]
  rhsBatch := [0]
  wf := dot_S8x1024x1024_S8x1024x64_S8x1024x64_2_1_1_2_0_0_wf
def dot_S1024x640_S640x256_S1024x256_1_0_0_1_n_n : DotDims S1024x640 S640x256 S1024x256 where
  lhsContracting := [1]
  rhsContracting := [0]
  lhsNonContracting := [0]
  rhsNonContracting := [1]
  lhsBatch := []
  rhsBatch := []
  wf := dot_S1024x640_S640x256_S1024x256_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf

class Facts : Prop extends Facts₀ where

variable [Facts]
-- ==== Proof.Spec.lean ====
/-
  What both programs compute, written once over the extended reals.

  An array of shape [M, N] is a function of its index; `ix2 i j` is the index (i, j).

  * `lin x W β` is the affine layer  x ↦ x Wᵀ + β :  entry (i, j) is  ∑ q, x (i, q) · W (j, q)  +  β j.
  * `relu a` is the entrywise maximum with the zero the programs spell (+0.0).
  * `lin2 p a Wp Wa β` is the affine layer applied to the row-wise concatenation [p | a] with the weight matrix
    given as its two column blocks:  ∑ b, p (i, b) · Wp (j, b)  +  ∑ c, a (i, c) · Wa (j, c)  +  β j.
  * Attention has 8 heads of width 64; head h owns the columns 64 h + d, d < 64, of the three projections q, k, v.
    The two programs arrange the same softmax-weighted average differently.
      - `headK`: scores  s (i, j) = ∑ d, (q (i, ·) · ⅛) · k (j, ·), their row maximum m, weights e = exp (s − m),
        and the output  (∑ j, e (i, j) · v (j, ·)) · (1 / ∑ j, e (i, j)) :  the average is normalised after the sum.
      - `headR`: scores  (∑ d, q (i, ·) · k (j, ·)) / 8, the same maximum (taken once more against −∞), weights e,
        and the output  ∑ j, (e (i, j) / (0 + ∑ j, e (i, j))) · v (j, ·) :  each weight is normalised before the sum.
    `attK` / `attR` lay the eight heads side by side: column c belongs to head c / 64 at position c % 64.
  * `body att …` is the whole network with the attention stage `att` plugged in.
-/
import Idealize.ShloMosaic.PureOps.Ideal.Laws
import Idealize.ShloMosaic.Lib.ValueIdx

noncomputable section

open scoped BigOperators

namespace Cert.Spec

open Idealize.ShloMosaic Idealize.ShloMosaic.ValueIdx

/-- An M × N array of extended reals, indexed as the programs index their arrays. -/
abbrev A2 (M N : ℕ) := (⟨2, ![M, N]⟩ : Shape).Idx → EReal

/-- A length-N array of extended reals. -/
abbrev A1 (N : ℕ) := (⟨1, ![N]⟩ : Shape).Idx → EReal

/-- A length-N array as a function of its one coordinate. -/
def vec {N : ℕ} (b : A1 N) : Fin N → EReal := fun j => b (ix1 j)

/-- The one row of a 1 × N array as a function of the column. -/
def row {N : ℕ} (b : A2 1 N) : Fin N → EReal := fun j => b (ix2 (0 : Fin 1) j)

/-- The first 128 columns of a matrix with 640 columns. -/
def left {N : ℕ} (W : A2 N 640) : A2 N 128 := fun e => W (ix2 (e 0) ⟨(e 1).val, by have h : (e 1).val < 128 := (e 1).isLt; omega⟩)

/-- The last 512 columns of a matrix with 640 columns. -/
def right {N : ℕ} (W : A2 N 640) : A2 N 512 := fun e => W (ix2 (e 0) ⟨128 + (e 1).val, by have h : (e 1).val < 512 := (e 1).isLt; omega⟩)

/-- Every entry is a real number (neither infinity). -/
def RealA {S : Shape} (a : S.Idx → EReal) : Prop := ∀ i, ∃ r : ℝ, a i = (r : EReal)

/-- Every value is a real number. -/
def RealF {N : ℕ} (β : Fin N → EReal) : Prop := ∀ j, ∃ r : ℝ, β j = (r : EReal)

/-! ## The float literals the programs spell, kept as their patterns -/

/-- +0.0 -/
def c0 : EReal := Ideal.ofBits .f32 0x00000000#32
/-- 1.0 -/
def c1 : EReal := Ideal.ofBits .f32 0x3F800000#32
/-- 0.125 -/
def cEighth : EReal := Ideal.ofBits .f32 0x3E000000#32
/-- 8.0 -/
def cEight : EReal := Ideal.ofBits .f32 0x41000000#32
/-- −∞ -/
def cNegInf : EReal := Ideal.ofBits .f32 0xFF800000#32

/-! ## Layers -/

/-- x Wᵀ + β. -/
def lin {M K N : ℕ} (x : A2 M K) (W : A2 N K) (β : Fin N → EReal) : A2 M N :=
  fun e => (∑ q : Fin K, x (ix2 (e 0) q) * W (ix2 (e 1) q)) + β (e 1)

theorem lin_apply {M K N : ℕ} (x : A2 M K) (W : A2 N K) (β : Fin N → EReal) (i : Fin M) (j : Fin N) :
    lin x W β (ix2 i j) = (∑ q : Fin K, x (ix2 i q) * W (ix2 j q)) + β j := rfl

/-- max (a, +0.0) entrywise. -/
def relu {M N : ℕ} (a : A2 M N) : A2 M N := fun e => max (a e) c0

theorem relu_apply {M N : ℕ} (a : A2 M N) (e : (⟨2, ![M, N]⟩ : Shape).Idx) : relu a e = max (a e) c0 := rfl

/-- [p | a] [Wp | Wa]ᵀ + β. -/
def lin2 {M N : ℕ} (p : A2 M 128) (a : A2 M 512) (Wp : A2 N 128) (Wa : A2 N 512) (β : Fin N → EReal) : A2 M N :=
  fun e => ((∑ b : Fin 128, p (ix2 (e 0) b) * Wp (ix2 (e 1) b)) + (∑ c : Fin 512, a (ix2 (e 0) c) * Wa (ix2 (e 1) c))) + β (e 1)

theorem lin2_apply {M N : ℕ} (p : A2 M 128) (a : A2 M 512) (Wp : A2 N 128) (Wa : A2 N 512) (β : Fin N → EReal)
    (i : Fin M) (j : Fin N) :
    lin2 p a Wp Wa β (ix2 i j)
      = ((∑ b : Fin 128, p (ix2 i b) * Wp (ix2 j b)) + (∑ c : Fin 512, a (ix2 i c) * Wa (ix2 j c))) + β j := rfl

/-! ## Attention -/

/-- Column 64 h + d: position d of head h. -/
def hcol (h : Fin 8) (d : Fin 64) : Fin 512 := ⟨64 * h.val + d.val, by have := h.isLt; have := d.isLt; omega⟩

theorem hcol_val (h : Fin 8) (d : Fin 64) : (hcol h d).val = 64 * h.val + d.val := rfl

/-- The head a column belongs to. -/
def headOf (c : Fin 512) : Fin 8 := ⟨c.val / 64, by have := c.isLt; omega⟩

/-- A column's position inside its head. -/
def posOf (c : Fin 512) : Fin 64 := ⟨c.val % 64, Nat.mod_lt _ (by decide)⟩

theorem hcol_headOf_posOf (c : Fin 512) : hcol (headOf c) (posOf c) = c :=
  Fin.ext (by show 64 * (c.val / 64) + c.val % 64 = c.val; omega)

section Heads
variable (q k v : A2 1024 512)

/-- Scores, the query scaled by ⅛ before the product. -/
def scK (h : Fin 8) (i j : Fin 1024) : EReal := ∑ d : Fin 64, (q (ix2 i (hcol h d)) * cEighth) * k (ix2 j (hcol h d))
/-- Row maximum of the scores, from −∞. -/
def mxK (h : Fin 8) (i : Fin 1024) : EReal := (Finset.univ : Finset (Fin 1024)).fold max cNegInf (fun j => scK q k h i j)
/-- Unnormalised weights. -/
def exK (h : Fin 8) (i j : Fin 1024) : EReal := Ideal.exp (scK q k h i j - mxK q k h i)
/-- One head's output, normalised after the weighted sum. -/
def headK (h : Fin 8) (i : Fin 1024) (d : Fin 64) : EReal :=
  (∑ j : Fin 1024, exK q k h i j * v (ix2 j (hcol h d))) * Ideal.div c1 (∑ j : Fin 1024, exK q k h i j)

/-- Scores, the product divided by 8. -/
def scR (h : Fin 8) (i j : Fin 1024) : EReal := Ideal.div (∑ d : Fin 64, q (ix2 i (hcol h d)) * k (ix2 j (hcol h d))) cEight
/-- Row maximum of the scores, from −∞, taken once more against −∞. -/
def mxR (h : Fin 8) (i : Fin 1024) : EReal :=
  max cNegInf ((Finset.univ : Finset (Fin 1024)).fold max cNegInf (fun j => scR q k h i j))
/-- Unnormalised weights. -/
def exR (h : Fin 8) (i j : Fin 1024) : EReal := Ideal.exp (scR q k h i j - mxR q k h i)
/-- Their sum, from +0.0. -/
def smR (h : Fin 8) (i : Fin 1024) : EReal := c0 + ∑ j : Fin 1024, exR q k h i j
/-- One head's output, each weight normalised before the weighted sum. -/
def headR (h : Fin 8) (i : Fin 1024) (d : Fin 64) : EReal :=
  ∑ j : Fin 1024, Ideal.div (exR q k h i j) (smR q k h i) * v (ix2 j (hcol h d))

/-- The eight heads side by side, in the first arrangement. -/
def attK : A2 1024 512 := fun e => headK q k v (headOf (e 1)) (e 0) (posOf (e 1))
/-- The eight heads side by side, in the second arrangement. -/
def attR : A2 1024 512 := fun e => headR q k v (headOf (e 1)) (e 0) (posOf (e 1))

theorem attK_apply (i : Fin 1024) (c : Fin 512) : attK q k v (ix2 i c) = headK q k v (headOf c) i (posOf c) := rfl
theorem attR_apply (i : Fin 1024) (c : Fin 512) : attR q k v (ix2 i c) = headR q k v (headOf c) i (posOf c) := rfl

end Heads

/-! ## The network -/

/-- The whole computation, with the attention stage `att` (a function of the three projections) plugged in. -/
def body (att : A2 1024 512 → A2 1024 512 → A2 1024 512 → A2 1024 512)
    (x : A2 1024 512) (W1 : A2 256 512) (β1 : Fin 256 → EReal) (W2 : A2 128 256) (β2 : Fin 128 → EReal)
    (Wq : A2 512 512) (βq : Fin 512 → EReal) (Wk : A2 512 512) (βk : Fin 512 → EReal)
    (Wv : A2 512 512) (βv : Fin 512 → EReal) (Wo : A2 512 512) (βo : Fin 512 → EReal)
    (W3p : A2 256 128) (W3a : A2 256 512) (β3 : Fin 256 → EReal) (W4 : A2 512 256) (β4 : Fin 512 → EReal) : A2 1024 512 :=
  fun e => Ideal.tanh
    (lin (relu (lin2 (relu (lin (relu (lin x W1 β1)) W2 β2))
                     (lin (att (lin x Wq βq) (lin x Wk βk) (lin x Wv βv)) Wo βo) W3p W3a β3)) W4 β4 e)

end Cert.Spec

end
-- ==== Proof.KHeads.lean ====
/-
  One attention head of the kernel body, as a term and at an entry.

  The body spells eight heads, one per block of 64 columns of the three projections q, k, v. Each is the same
  sequence of operations on its column block: the scores (the query block scaled by ⅛, contracted against the key
  block), their row maximum, the weights exp (score − maximum), the weights' row sum, the weighted sum of the value
  block's rows, and the product with 1 / (row sum). `headTerm` is that sequence once, over the block's offset;
  the eight equations say each printed head is it; `headTerm_apply` reads it at an entry over the extended reals,
  where it is the specification's `headK`.
-/
import proofs.«111305_g82875688944205_cont_9to1c4b_701_3_alg».proof.Proof.Gen.KernelIdeal.Skeleton
import proofs.«111305_g82875688944205_cont_9to1c4b_701_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.KH

open Idealize.ShloMosaic Idealize.SL.Sem Idealize.ShloMosaic.ValueIdx
open Cert.KernelIdeal Cert.KernelIdeal.Gen

section Generic
variable {F : FTy → Type} [FloatOps F]

/-- The scores of one head: the query's column block scaled by ⅛, contracted against the key's column block. -/
def scoreTerm (o : Fin 2 → ℕ) (hs : S1024x512.Slices o S1024x64) (q k : FVec F S1024x512 .f32) : FVec F S1024x1024 .f32 :=
  have qh : FVec F S1024x64 .f32 := extractStridedSlice S1024x64 o q hs
  have c : F .f32 := Scalar.ofBits .f32 0x3E000000#32
  have cb : FVec F S1024x64 .f32 := broadcast S1024x64 c
  have qs : FVec F S1024x64 .f32 := mulf qh cb
  have kh : FVec F S1024x64 .f32 := extractStridedSlice S1024x64 o k hs
  have z : FVec F S1024x1024 .f32 := constant S1024x1024 .f32 0x00000000#32
  have s : FVec F S1024x1024 .f32 := matmul dot_S1024x64_S1024x64_S1024x1024_1_1_0_0_n_n none qs kh z
  s

/-- From the scores and the value block: the softmax-weighted sum of the value rows, normalised after the sum. -/
def headTail (s : FVec F S1024x1024 .f32) (vh : FVec F S1024x64 .f32) : FVec F S1024x64 .f32 :=
  have m : FVec F S1024 .f32 := multiReduction .maximumf [1] S1024 s 0xFF800000#32 reduces_S1024x1024_S1024 (.inl rfl) rfl
  have m1 : FVec F S1024x1 .f32 := shapeCast S1024x1 m shapeCasts_S1024_S1024x1
  have mb : FVec F S1024x1024 .f32 := broadcastTo S1024x1024 m1 broadcasts_S1024x1_S1024x1024
  have t : FVec F S1024x1024 .f32 := subf s mb
  have e : FVec F S1024x1024 .f32 := exp t
  have l : FVec F S1024 .f32 := multiReduction .add [1] S1024 e 0x00000000#32 reduces_S1024x1024_S1024 (.inl rfl) rfl
  have l1 : FVec F S1024x1 .f32 := shapeCast S1024x1 l shapeCasts_S1024_S1024x1
  have one : F .f32 := Scalar.ofBits .f32 0x3F800000#32
  have ob : FVec F S1024x1 .f32 := broadcast S1024x1 one
  have r : FVec F S1024x1 .f32 := divf ob l1
  have z : FVec F S1024x64 .f32 := constant S1024x64 .f32 0x00000000#32
  have a : FVec F S1024x64 .f32 := matmul dot_S1024x1024_S1024x64_S1024x64_1_0_0_1_n_n none e vh z
  have rb : FVec F S1024x64 .f32 := broadcastTo S1024x64 r broadcasts_S1024x1_S1024x64
  have out : FVec F S1024x64 .f32 := mulf a rb
  out

/-- One attention head on the column block at offset `o`. -/
def headTerm (o : Fin 2 → ℕ) (hs : S1024x512.Slices o S1024x64) (q k v : FVec F S1024x512 .f32) : FVec F S1024x64 .f32 :=
  headTail (scoreTerm o hs q k) (extractStridedSlice S1024x64 o v hs)

end Generic

/-! ## The eight heads of the kernel body are this one term -/

section Heads
variable {F : FTy → Type} [FloatOps F]

theorem head0_eq (q k v30 : FVec F S1024x512 .f32) (b : Vec F S1x512 .f32) :
    k0_pay7 q k v30 b = headTerm ![0, 0] slices_S1024x512_o0_0_S1024x64 q k (k0_pay6 v30 b) := rfl

theorem head1_eq (q k v30 : FVec F S1024x512 .f32) (b : Vec F S1x512 .f32) :
    k0_pay8 q k v30 b = headTerm ![0, 64] slices_S1024x512_o0_64_S1024x64 q k (k0_pay6 v30 b) := rfl

theorem head2_eq (q k v30 : FVec F S1024x512 .f32) (b : Vec F S1x512 .f32) :
    k0_pay11 (k0_pay9 v30 b) (k0_pay10 q k) = headTerm ![0, 128] slices_S1024x512_o0_128_S1024x64 q k (k0_pay6 v30 b) := rfl

theorem head3_eq (q k v : FVec F S1024x512 .f32) :
    k0_pay12 q k v = headTerm ![0, 192] slices_S1024x512_o0_192_S1024x64 q k v := rfl

theorem head4_eq (q k v : FVec F S1024x512 .f32) :
    k0_pay16 (k0_pay13 v) (k0_pay14 q k) (k0_pay15 q k) = headTerm ![0, 256] slices_S1024x512_o0_256_S1024x64 q k v := rfl

theorem head5_eq (q k v : FVec F S1024x512 .f32) :
    k0_pay17 q k v = headTerm ![0, 320] slices_S1024x512_o0_320_S1024x64 q k v := rfl

theorem head6_eq (q k v : FVec F S1024x512 .f32) :
    k0_pay18 q k v = headTerm ![0, 384] slices_S1024x512_o0_384_S1024x64 q k v := rfl

theorem head7_eq (q k v : FVec F S1024x512 .f32) :
    headTail (k0_pay20 q k) (k0_pay19 v) = headTerm ![0, 448] slices_S1024x512_o0_448_S1024x64 q k v := rfl

end Heads

/-! ## Reading the layout operations of a head at an entry -/

section Layout
variable {α : Type}

/-- The index of row `i` with the column `j` put back on the reduced axis. -/
theorem lift_row (i : Fin 1024) (j : Fin 1024) :
    reduces_S1024x1024_S1024.lift (ix1 i) j = ix2 i j := by
  funext a; refine Fin.ext ?_
  match a with
  | ⟨0, _⟩ => rfl
  | ⟨1, _⟩ => rfl

/-- A length-1024 array cast to a 1024 × 1 column reads, at `(i, u)`, the operand at `i`. -/
theorem cast_col_apply (x : S1024.Idx → α) (i : Fin 1024) (u : Fin 1) :
    shapeCast S1024x1 x shapeCasts_S1024_S1024x1 (ix2 i u) = x (ix1 i) :=
  shapeCast_apply x shapeCasts_S1024_S1024x1 _ _ (by
    have hu : u.val = 0 := by omega
    rw [Shape.rowMajor_val_two, Shape.rowMajor_val_one]
    show i.val = i.val * 1 + u.val
    rw [hu, Nat.mul_one, Nat.add_zero])

/-- A 1024 × 1 column broadcast along 1024 columns reads, at `(i, j)`, the column at row `i`. -/
theorem bcast_col_1024_apply (x : S1024x1.Idx → α) (i : Fin 1024) (j : Fin 1024) :
    broadcastTo S1024x1024 x broadcasts_S1024x1_S1024x1024 (ix2 i j) = x (ix2 i (0 : Fin 1)) := by
  refine broadcastTo_apply x broadcasts_S1024x1_S1024x1024 (ix2 i j) (ix2 i (0 : Fin 1)) fun ax => ?_
  match ax with
  | ⟨0, _⟩ =>
    show i.val = if (1024 : ℕ) = 1 then 0 else i.val
    rw [if_neg (by decide)]
  | ⟨1, _⟩ => rfl

/-- A 1024 × 1 column broadcast along 64 columns reads, at `(i, d)`, the column at row `i`. -/
theorem bcast_col_64_apply (x : S1024x1.Idx → α) (i : Fin 1024) (d : Fin 64) :
    broadcastTo S1024x64 x broadcasts_S1024x1_S1024x64 (ix2 i d) = x (ix2 i (0 : Fin 1)) := by
  refine broadcastTo_apply x broadcasts_S1024x1_S1024x64 (ix2 i d) (ix2 i (0 : Fin 1)) fun ax => ?_
  match ax with
  | ⟨0, _⟩ =>
    show i.val = if (1024 : ℕ) = 1 then 0 else i.val
    rw [if_neg (by decide)]
  | ⟨1, _⟩ => rfl

end Layout

/-! ## The two reductions along a row -/

/-- The row maximum at row `i`: the fold of `max` from −∞ over the row's entries. -/
theorem rowmax_apply (s : FVec Ideal S1024x1024 .f32) (i : Fin 1024) :
    multiReduction (F := Ideal) .maximumf [1] S1024 s 0xFF800000#32 reduces_S1024x1024_S1024 (.inl rfl) rfl (ix1 i)
      = (Finset.univ : Finset (Fin 1024)).fold max (Ideal.ofBits .f32 0xFF800000#32) (fun j => s (ix2 i j)) := by
  refine (Ideal.multiReduction_maximumf_single s _ reduces_S1024x1024_S1024 _ _ (ix1 i)).trans ?_
  refine congrArg (fun f => (Finset.univ : Finset (Fin 1024)).fold max (Ideal.ofBits .f32 0xFF800000#32) f) ?_
  funext j
  exact congrArg s (lift_row i j)

/-- The row sum at row `i`. -/
theorem rowsum_apply (s : FVec Ideal S1024x1024 .f32) (i : Fin 1024) :
    multiReduction (F := Ideal) .add [1] S1024 s 0x00000000#32 reduces_S1024x1024_S1024 (.inl rfl) rfl (ix1 i)
      = ∑ j : Fin 1024, s (ix2 i j) := by
  refine (Ideal.multiReduction_add_single s _ reduces_S1024x1024_S1024 _ _ (ix1 i)).trans ?_
  exact Finset.sum_congr rfl fun j _ => congrArg s (lift_row i j)

/-! ## The two products -/

/-- Left operand of the score product: row of the output. -/
theorem lhs_sc_0 (j : S1024x1024.Idx) (q : dot_S1024x64_S1024x64_S1024x1024_1_1_0_0_n_n.contr.Idx) :
    (dot_S1024x64_S1024x64_S1024x1024_1_1_0_0_n_n.lhsIdx j q 0).val = (j 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
/-- Left operand of the score product: the contracted column. -/
theorem lhs_sc_1 (j : S1024x1024.Idx) (q : dot_S1024x64_S1024x64_S1024x1024_1_1_0_0_n_n.contr.Idx) :
    (dot_S1024x64_S1024x64_S1024x1024_1_1_0_0_n_n.lhsIdx j q 1).val = (q ⟨0, by decide⟩).val :=
  dot_S1024x64_S1024x64_S1024x1024_1_1_0_0_n_n.lhsIdx_val_of_single rfl j q
/-- Right operand of the score product: column of the output. -/
theorem rhs_sc_0 (j : S1024x1024.Idx) (q : dot_S1024x64_S1024x64_S1024x1024_1_1_0_0_n_n.contr.Idx) :
    (dot_S1024x64_S1024x64_S1024x1024_1_1_0_0_n_n.rhsIdx j q 0).val = (j 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl
/-- Right operand of the score product: the contracted column. -/
theorem rhs_sc_1 (j : S1024x1024.Idx) (q : dot_S1024x64_S1024x64_S1024x1024_1_1_0_0_n_n.contr.Idx) :
    (dot_S1024x64_S1024x64_S1024x1024_1_1_0_0_n_n.rhsIdx j q 1).val = (q ⟨0, by decide⟩).val :=
  dot_S1024x64_S1024x64_S1024x1024_1_1_0_0_n_n.rhsIdx_val_of_single rfl j q

/-- The score product into the zero splat, at `(i, j)`: row `i` of the left operand against row `j` of the right. -/
theorem matmul_sc_apply (A B : FVec Ideal S1024x64 .f32) (i j : Fin 1024) :
    matmul (F := Ideal) dot_S1024x64_S1024x64_S1024x1024_1_1_0_0_n_n none A B (constant S1024x1024 .f32 0x00000000#32) (ix2 i j)
      = ∑ d : Fin 64, A (ix2 i d) * B (ix2 j d) := by
  simp only [matmul]
  rw [Ideal.matmul_constant_zero_apply, ← Equiv.sum_comp (ValueIdx.contrEquiv1 dot_S1024x64_S1024x64_S1024x1024_1_1_0_0_n_n 64 rfl rfl).symm]
  refine Finset.sum_congr rfl fun d _ => ?_
  have hk := ValueIdx.contrEquiv1_symm_val dot_S1024x64_S1024x64_S1024x1024_1_1_0_0_n_n 64 rfl rfl d
  have el : dot_S1024x64_S1024x64_S1024x1024_1_1_0_0_n_n.lhsIdx (ix2 i j) ((ValueIdx.contrEquiv1 dot_S1024x64_S1024x64_S1024x1024_1_1_0_0_n_n 64 rfl rfl).symm d) = ix2 i d := funext fun a => Fin.ext (by
    match a with
    | ⟨0, _⟩ => exact lhs_sc_0 _ _
    | ⟨1, _⟩ => exact (lhs_sc_1 _ _).trans hk)
  have er : dot_S1024x64_S1024x64_S1024x1024_1_1_0_0_n_n.rhsIdx (ix2 i j) ((ValueIdx.contrEquiv1 dot_S1024x64_S1024x64_S1024x1024_1_1_0_0_n_n 64 rfl rfl).symm d) = ix2 j d := funext fun a => Fin.ext (by
    match a with
    | ⟨0, _⟩ => exact rhs_sc_0 _ _
    | ⟨1, _⟩ => exact (rhs_sc_1 _ _).trans hk)
  rw [el, er]

/-- Left operand of the weighted sum: row of the output. -/
theorem lhs_av_0 (j : S1024x64.Idx) (q : dot_S1024x1024_S1024x64_S1024x64_1_0_0_1_n_n.contr.Idx) :
    (dot_S1024x1024_S1024x64_S1024x64_1_0_0_1_n_n.lhsIdx j q 0).val = (j 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
/-- Left operand of the weighted sum: the contracted column. -/
theorem lhs_av_1 (j : S1024x64.Idx) (q : dot_S1024x1024_S1024x64_S1024x64_1_0_0_1_n_n.contr.Idx) :
    (dot_S1024x1024_S1024x64_S1024x64_1_0_0_1_n_n.lhsIdx j q 1).val = (q ⟨0, by decide⟩).val :=
  dot_S1024x1024_S1024x64_S1024x64_1_0_0_1_n_n.lhsIdx_val_of_single rfl j q
/-- Right operand of the weighted sum: the contracted row. -/
theorem rhs_av_0 (j : S1024x64.Idx) (q : dot_S1024x1024_S1024x64_S1024x64_1_0_0_1_n_n.contr.Idx) :
    (dot_S1024x1024_S1024x64_S1024x64_1_0_0_1_n_n.rhsIdx j q 0).val = (q ⟨0, by decide⟩).val :=
  dot_S1024x1024_S1024x64_S1024x64_1_0_0_1_n_n.rhsIdx_val_of_single rfl j q
/-- Right operand of the weighted sum: column of the output. -/
theorem rhs_av_1 (j : S1024x64.Idx) (q : dot_S1024x1024_S1024x64_S1024x64_1_0_0_1_n_n.contr.Idx) :
    (dot_S1024x1024_S1024x64_S1024x64_1_0_0_1_n_n.rhsIdx j q 1).val = (j 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- The weighted sum into the zero splat, at `(i, d)`: row `i` of the weights against column `d` of the values. -/
theorem matmul_av_apply (E : FVec Ideal S1024x1024 .f32) (V : FVec Ideal S1024x64 .f32) (i : Fin 1024) (d : Fin 64) :
    matmul (F := Ideal) dot_S1024x1024_S1024x64_S1024x64_1_0_0_1_n_n none E V (constant S1024x64 .f32 0x00000000#32) (ix2 i d)
      = ∑ j : Fin 1024, E (ix2 i j) * V (ix2 j d) := by
  simp only [matmul]
  rw [Ideal.matmul_constant_zero_apply, ← Equiv.sum_comp (ValueIdx.contrEquiv1 dot_S1024x1024_S1024x64_S1024x64_1_0_0_1_n_n 1024 rfl rfl).symm]
  refine Finset.sum_congr rfl fun j _ => ?_
  have hk := ValueIdx.contrEquiv1_symm_val dot_S1024x1024_S1024x64_S1024x64_1_0_0_1_n_n 1024 rfl rfl j
  have el : dot_S1024x1024_S1024x64_S1024x64_1_0_0_1_n_n.lhsIdx (ix2 i d) ((ValueIdx.contrEquiv1 dot_S1024x1024_S1024x64_S1024x64_1_0_0_1_n_n 1024 rfl rfl).symm j) = ix2 i j := funext fun a => Fin.ext (by
    match a with
    | ⟨0, _⟩ => exact lhs_av_0 _ _
    | ⟨1, _⟩ => exact (lhs_av_1 _ _).trans hk)
  have er : dot_S1024x1024_S1024x64_S1024x64_1_0_0_1_n_n.rhsIdx (ix2 i d) ((ValueIdx.contrEquiv1 dot_S1024x1024_S1024x64_S1024x64_1_0_0_1_n_n 1024 rfl rfl).symm j) = ix2 j d := funext fun a => Fin.ext (by
    match a with
    | ⟨0, _⟩ => exact (rhs_av_0 _ _).trans hk
    | ⟨1, _⟩ => exact rhs_av_1 _ _)
  rw [el, er]

/-! ## One head at an entry -/

/-- The unnormalised softmax weights of the scores `s`: exp (s − row maximum), as an array. -/
def expW (s : FVec Ideal S1024x1024 .f32) : FVec Ideal S1024x1024 .f32 :=
  exp (subf s (broadcastTo S1024x1024
    (shapeCast S1024x1 (multiReduction (F := Ideal) .maximumf [1] S1024 s 0xFF800000#32 reduces_S1024x1024_S1024 (.inl rfl) rfl)
      shapeCasts_S1024_S1024x1) broadcasts_S1024x1_S1024x1024))

/-- The same weight at `(i, j)`, over the extended reals. -/
def wK (s : FVec Ideal S1024x1024 .f32) (i j : Fin 1024) : EReal :=
  Ideal.exp (s (ix2 i j) - (Finset.univ : Finset (Fin 1024)).fold max (Ideal.ofBits .f32 0xFF800000#32) (fun j' => s (ix2 i j')))

theorem expW_apply (s : FVec Ideal S1024x1024 .f32) (i j : Fin 1024) : expW s (ix2 i j) = wK s i j := by
  show Ideal.exp (s (ix2 i j) - broadcastTo S1024x1024
    (shapeCast S1024x1 (multiReduction (F := Ideal) .maximumf [1] S1024 s 0xFF800000#32 reduces_S1024x1024_S1024 (.inl rfl) rfl)
      shapeCasts_S1024_S1024x1) broadcasts_S1024x1_S1024x1024 (ix2 i j)) = _
  rw [bcast_col_1024_apply, cast_col_apply, rowmax_apply]
  rfl

/-- The tail of a head at `(i, d)`: the weighted sum of column `d` of the value block, times 1 / (the weights' sum). -/
theorem headTail_apply (s : FVec Ideal S1024x1024 .f32) (vh : FVec Ideal S1024x64 .f32) (i : Fin 1024) (d : Fin 64) :
    headTail (F := Ideal) s vh (ix2 i d)
      = (∑ j : Fin 1024, wK s i j * vh (ix2 j d)) * Ideal.div (Ideal.ofBits .f32 0x3F800000#32) (∑ j : Fin 1024, wK s i j) := by
  show (matmul (F := Ideal) dot_S1024x1024_S1024x64_S1024x64_1_0_0_1_n_n none (expW s) vh (constant S1024x64 .f32 0x00000000#32) (ix2 i d))
      * (broadcastTo S1024x64 (divf (broadcast S1024x1 (Scalar.ofBits (F := Ideal) .f32 0x3F800000#32))
          (shapeCast S1024x1 (multiReduction (F := Ideal) .add [1] S1024 (expW s) 0x00000000#32 reduces_S1024x1024_S1024 (.inl rfl) rfl)
            shapeCasts_S1024_S1024x1)) broadcasts_S1024x1_S1024x64 (ix2 i d)) = _
  rw [matmul_av_apply, bcast_col_64_apply]
  show _ * Ideal.div (Ideal.ofBits .f32 0x3F800000#32)
      (shapeCast S1024x1 (multiReduction (F := Ideal) .add [1] S1024 (expW s) 0x00000000#32 reduces_S1024x1024_S1024 (.inl rfl) rfl)
        shapeCasts_S1024_S1024x1 (ix2 i (0 : Fin 1))) = _
  rw [cast_col_apply, rowsum_apply]
  simp only [expW_apply]

/-- The scores of head `h` at `(i, j)`. -/
theorem scoreTerm_apply (o1 : ℕ) (hs : S1024x512.Slices ![0, o1] S1024x64) (h : Fin 8) (ho : o1 = 64 * h.val)
    (q k : FVec Ideal S1024x512 .f32) (i j : Fin 1024) :
    scoreTerm (F := Ideal) ![0, o1] hs q k (ix2 i j) = Cert.Spec.scK q k h i j := by
  show matmul (F := Ideal) dot_S1024x64_S1024x64_S1024x1024_1_1_0_0_n_n none
      (mulf (extractStridedSlice S1024x64 ![0, o1] q hs) (broadcast S1024x64 (Scalar.ofBits (F := Ideal) .f32 0x3E000000#32)))
      (extractStridedSlice S1024x64 ![0, o1] k hs) (constant S1024x1024 .f32 0x00000000#32) (ix2 i j) = _
  rw [matmul_sc_apply]
  unfold Cert.Spec.scK
  refine Finset.sum_congr rfl fun d _ => ?_
  show (extractStridedSlice S1024x64 ![0, o1] q hs (ix2 i d) * Ideal.ofBits .f32 0x3E000000#32)
      * extractStridedSlice S1024x64 ![0, o1] k hs (ix2 j d) = _
  rw [slice2_axis1_apply o1 q hs i d (Cert.Spec.hcol h d) (by rw [Cert.Spec.hcol_val, ho]),
    slice2_axis1_apply o1 k hs j d (Cert.Spec.hcol h d) (by rw [Cert.Spec.hcol_val, ho])]
  rfl

/-- One head of the kernel body at `(i, d)` is the head of the specification. -/
theorem headTerm_apply (o1 : ℕ) (hs : S1024x512.Slices ![0, o1] S1024x64) (h : Fin 8) (ho : o1 = 64 * h.val)
    (q k v : FVec Ideal S1024x512 .f32) (i : Fin 1024) (d : Fin 64) :
    headTerm (F := Ideal) ![0, o1] hs q k v (ValueIdx.ix2 i d) = Cert.Spec.headK q k v h i d := by
  unfold headTerm
  rw [headTail_apply]
  have hw : ∀ j : Fin 1024, wK (scoreTerm (F := Ideal) ![0, o1] hs q k) i j = Cert.Spec.exK q k h i j := by
    intro j
    unfold wK Cert.Spec.exK Cert.Spec.mxK
    rw [scoreTerm_apply o1 hs h ho q k i j]
    refine congrArg (fun m => Ideal.exp (Cert.Spec.scK q k h i j - m)) ?_
    refine congrArg (fun f => (Finset.univ : Finset (Fin 1024)).fold max (Ideal.ofBits .f32 0xFF800000#32) f) ?_
    funext j'
    exact scoreTerm_apply o1 hs h ho q k i j'
  have hv : ∀ j : Fin 1024, extractStridedSlice S1024x64 ![0, o1] v hs (ix2 j d) = v (ix2 j (Cert.Spec.hcol h d)) := fun j =>
    slice2_axis1_apply o1 v hs j d (Cert.Spec.hcol h d) (by rw [Cert.Spec.hcol_val, ho])
  simp only [hw, hv]
  rfl

end Cert.KernelIdeal.KH

end
-- ==== Proof.LibDotNT.lean ====
/-
  The matrix product with the right factor transposed, read at one entry.

  The dimension numbers `DotDims.transposedRhs M K N` describe an M × K array times the transpose of an N × K array: axis 1
  of each factor is contracted, the left factor's axis 0 gives the result's rows and the right factor's axis 0 its
  columns. At result entry (i, j) and contraction position k the left factor is read at (i, c) and the right factor at
  (j, c), where c is the one coordinate of k. Summing over positions is summing over c, so over the extended reals the
  entry is

      ∑ q : Fin K, A (i, q) · B (j, q),

  with no law of the extended reals used: only the index set of the sum is renamed. This holds for a product
  accumulated into the all-zero array and for the host's product, whatever precision or schedule annotates them.
-/
import Idealize.ShloMosaic.PureOps.Ideal.Laws
import Idealize.ShloMosaic.Lib.ValueIdx

noncomputable section

open scoped BigOperators

namespace Cert.LibDotNT

open Idealize.ShloMosaic Idealize.ShloMosaic.ValueIdx

variable {M K N : Nat}

/-- The coordinate, below `K`, of a contraction position: the contraction index set is one axis of extent `K`. -/
def pos (k : (DotDims.transposedRhs M K N).contr.Idx) : Fin K := contrEquiv1 (DotDims.transposedRhs M K N) K rfl rfl k

/-- A sum over coordinates, read at `pos k`, is a sum over positions. -/
theorem sum_pos {β : Type*} [AddCommMonoid β] (f : Fin K → β) :
    ∑ k : (DotDims.transposedRhs M K N).contr.Idx, f (pos k) = ∑ q : Fin K, f q :=
  Equiv.sum_comp (contrEquiv1 (DotDims.transposedRhs M K N) K rfl rfl) f

/-- The left factor's row is the result's row. -/
theorem lrow (e : (⟨2, ![M, N]⟩ : Shape).Idx) (k : (DotDims.transposedRhs M K N).contr.Idx) :
    ((DotDims.transposedRhs M K N).lhsIdx e k 0).val = (e 0).val := rfl

/-- The left factor's column is the contraction coordinate. -/
theorem lcol (e : (⟨2, ![M, N]⟩ : Shape).Idx) (k : (DotDims.transposedRhs M K N).contr.Idx) :
    ((DotDims.transposedRhs M K N).lhsIdx e k 1).val = (pos k).val :=
  (DotDims.transposedRhs M K N).lhsIdx_val_of_single (cl := 1) rfl e k

/-- The right factor's row is the result's column. -/
theorem rrow (e : (⟨2, ![M, N]⟩ : Shape).Idx) (k : (DotDims.transposedRhs M K N).contr.Idx) :
    ((DotDims.transposedRhs M K N).rhsIdx e k 0).val = (e 1).val := rfl

/-- The right factor's column is the contraction coordinate. -/
theorem rcol (e : (⟨2, ![M, N]⟩ : Shape).Idx) (k : (DotDims.transposedRhs M K N).contr.Idx) :
    ((DotDims.transposedRhs M K N).rhsIdx e k 1).val = (pos k).val :=
  (DotDims.transposedRhs M K N).rhsIdx_val_of_single (cr := 1) rfl e k

/-- At entry (i, j) and position `k` the left factor is read at (i, `pos k`). -/
theorem left_at (i : Fin M) (j : Fin N) (k : (DotDims.transposedRhs M K N).contr.Idx) :
    (DotDims.transposedRhs M K N).lhsIdx (ix2 i j) k = ix2 i (pos k) := by
  funext a
  apply Fin.ext
  match a with
  | ⟨0, _⟩ => exact lrow (ix2 i j) k
  | ⟨1, _⟩ => exact lcol (ix2 i j) k

/-- At entry (i, j) and position `k` the right factor is read at (j, `pos k`). -/
theorem right_at (i : Fin M) (j : Fin N) (k : (DotDims.transposedRhs M K N).contr.Idx) :
    (DotDims.transposedRhs M K N).rhsIdx (ix2 i j) k = ix2 j (pos k) := by
  funext a
  apply Fin.ext
  match a with
  | ⟨0, _⟩ => exact rrow (ix2 i j) k
  | ⟨1, _⟩ => exact rcol (ix2 i j) k

/-- The sum over positions of the factors' products at entry (i, j) is ∑ q, A (i, q) · B (j, q). -/
theorem sum_products {φ₁ φ₂ : FTy} (A : FVec Ideal ⟨2, ![M, K]⟩ φ₁) (B : FVec Ideal ⟨2, ![N, K]⟩ φ₂) (i : Fin M) (j : Fin N) :
    ∑ k : (DotDims.transposedRhs M K N).contr.Idx,
        A ((DotDims.transposedRhs M K N).lhsIdx (ix2 i j) k) * B ((DotDims.transposedRhs M K N).rhsIdx (ix2 i j) k)
      = ∑ q : Fin K, A (ix2 i q) * B (ix2 j q) := by
  rw [← sum_pos (M := M) (N := N) fun q => A (ix2 i q) * B (ix2 j q)]
  exact Finset.sum_congr rfl fun k _ => by rw [left_at, right_at]

/-- The product accumulated into the all-zero array, at the ideal values and at entry (i, j). -/
theorem matmul_zero_nt (M K N : Nat) {φ₁ φ₂ : FTy} (prec : Option ContractPrecision)
    (A : FVec Ideal ⟨2, ![M, K]⟩ φ₁) (B : FVec Ideal ⟨2, ![N, K]⟩ φ₂) (i : Fin M) (j : Fin N) :
    FloatOps.matmul (DotDims.transposedRhs M K N) prec A B (constant ⟨2, ![M, N]⟩ .f32 0x00000000#32) (ix2 i j)
      = ∑ q : Fin K, A (ix2 i q) * B (ix2 j q) :=
  (Ideal.matmul_constant_zero_apply (DotDims.transposedRhs M K N) prec A B (ix2 i j)).trans (sum_products A B i j)

/-- The host's product, at the ideal values and at entry (i, j). -/
theorem dotGeneral_nt (M K N : Nat) {φ₁ φ₂ : FTy} (prec : Option ContractPrecision) (sched : HostSchedule)
    (A : FVec Ideal ⟨2, ![M, K]⟩ φ₁) (B : FVec Ideal ⟨2, ![N, K]⟩ φ₂) (i : Fin M) (j : Fin N) :
    FloatOps.dotGeneral (DotDims.transposedRhs M K N) prec sched A B (ix2 i j)
      = ∑ q : Fin K, A (ix2 i q) * B (ix2 j q) :=
  (Ideal.dotGeneral_apply (DotDims.transposedRhs M K N) prec sched A B (ix2 i j)).trans (sum_products A B i j)

end Cert.LibDotNT

end
-- ==== Proof.KLin.lean ====
/-
  The kernel's affine layers, as terms and as values.

  The kernel body computes every affine layer  x ↦ x Wᵀ + b  the same way: a product with the right factor transposed,
  accumulated into the all-zero array, plus the one-row bias broadcast down the rows; a rectifier is the entrywise
  maximum with a splat of +0.0. `linTerm`, `reluTerm`, `lin2Term` (the layer applied to two arrays side by side, the
  weight matrix given as its two column blocks) and `cat8` (eight 64-column pieces laid side by side) spell these terms
  once, for any float family; the kernel's payloads are these terms by unfolding. At the ideal values each term is the
  specification's function of the same name: entry (i, j) of the product is ∑ q, x (i, q) · W (j, q), the broadcast
  bias contributes b (0, j), and column c of the concatenation is column c % 64 of piece c / 64.
-/
import proofs.«111305_g82875688944205_cont_9to1c4b_701_3_alg».proof.Proof.Gen.KernelIdeal.Skeleton
import proofs.«111305_g82875688944205_cont_9to1c4b_701_3_alg».proof.Proof.Spec
import proofs.«111305_g82875688944205_cont_9to1c4b_701_3_alg».proof.Proof.LibDotNT
import Idealize.ShloMosaic.Lib.ValueLayout
import Idealize.ShloMosaic.Lib.Pipeline.Value

noncomputable section

open scoped BigOperators

namespace Cert.KernelIdeal.KL

open Cert.KernelIdeal Cert.KernelIdeal.Gen Idealize.ShloMosaic Idealize.ShloMosaic.ValueIdx

section Terms
variable {F : FTy → Type} [FloatOps F]

/-- x Wᵀ + b: the product into the zero array, plus the bias row broadcast down the rows. -/
def linTerm {sx sw so sb : Shape} (d : DotDims sx sw so) (x : FVec F sx .f32) (W : FVec F sw .f32) (b : FVec F sb .f32)
    (hsc : sb.ShapeCasts sb) (hbc : sb.Broadcasts so) : FVec F so .f32 :=
  addf (matmul d none x W (constant so .f32 0x00000000#32)) (broadcastTo so (shapeCast sb b hsc) hbc)

/-- The entrywise maximum with +0.0. -/
def reluTerm {s : Shape} (a : FVec F s .f32) : FVec F s .f32 :=
  maximumf a (broadcast s (Scalar.ofBits .f32 0x00000000#32))

/-- [p | a] [Wp | Wa]ᵀ + b. -/
def lin2Term (p : FVec F S1024x128 .f32) (a : FVec F S1024x512 .f32) (Wp : Vec F S256x128 .f32) (Wa : Vec F S256x512 .f32)
    (b : Vec F S1x256 .f32) : FVec F S1024x256 .f32 :=
  addf (addf (matmul dot_S1024x128_S256x128_S1024x256_1_1_0_0_n_n none p (shapeCast S256x128 Wp shapeCasts_S256x128_S256x128) (constant S1024x256 .f32 0x00000000#32))
             (matmul dot_S1024x512_S256x512_S1024x256_1_1_0_0_n_n none a (shapeCast S256x512 Wa shapeCasts_S256x512_S256x512) (constant S1024x256 .f32 0x00000000#32)))
       (broadcastTo S1024x256 (shapeCast S1x256 b shapeCasts_S1x256_S1x256) broadcasts_S1x256_S1024x256)

/-- Eight [1024, 64] pieces side by side. -/
def cat8 (h0 h1 h2 h3 h4 h5 h6 h7 : FVec F S1024x64 .f32) : FVec F S1024x512 .f32 :=
  concatenate S1024x512 1 [⟨S1024x64, h0⟩, ⟨S1024x64, h1⟩, ⟨S1024x64, h2⟩, ⟨S1024x64, h3⟩, ⟨S1024x64, h4⟩, ⟨S1024x64, h5⟩, ⟨S1024x64, h6⟩, ⟨S1024x64, h7⟩]
    concatenates_S1024x64_S1024x64_S1024x64_S1024x64_S1024x64_S1024x64_S1024x64_S1024x64_S1024x512_d1

/-- The last head's softmax-weighted average, from its scores `s` and its value columns `vh`. -/
def lastHead (s : FVec F S1024x1024 .f32) (vh : FVec F S1024x64 .f32) : FVec F S1024x64 .f32 :=
  have v167 : FVec F S1024 .f32 := multiReduction .maximumf [1] S1024 s 0xFF800000#32 reduces_S1024x1024_S1024 (.inl rfl) rfl
  have v168 : FVec F S1024x1 .f32 := shapeCast S1024x1 v167 shapeCasts_S1024_S1024x1
  have v169 : FVec F S1024x1024 .f32 := broadcastTo S1024x1024 v168 broadcasts_S1024x1_S1024x1024
  have v170 : FVec F S1024x1024 .f32 := subf s v169
  have v171 : FVec F S1024x1024 .f32 := exp v170
  have v172 : FVec F S1024 .f32 := multiReduction .add [1] S1024 v171 0x00000000#32 reduces_S1024x1024_S1024 (.inl rfl) rfl
  have v173 : FVec F S1024x1 .f32 := shapeCast S1024x1 v172 shapeCasts_S1024_S1024x1
  have cst_73 : F .f32 := Scalar.ofBits .f32 0x3F800000#32
  have v174 : FVec F S1024x1 .f32 := broadcast S1024x1 cst_73
  have v175 : FVec F S1024x1 .f32 := divf v174 v173
  have cst_74 : FVec F S1024x64 .f32 := constant S1024x64 .f32 0x00000000#32
  have v176 : FVec F S1024x64 .f32 := matmul dot_S1024x1024_S1024x64_S1024x64_1_0_0_1_n_n none v171 vh cst_74
  have v177 : FVec F S1024x64 .f32 := broadcastTo S1024x64 v175 broadcasts_S1024x1_S1024x64
  have v178 : FVec F S1024x64 .f32 := mulf v176 v177
  v178

/-! ### The payloads are these terms -/

theorem pay3_eq (x : Vec F S1024x512 .f32) (W : Vec F S512x512 .f32) (b : Vec F S1x512 .f32) :
    k0_pay3 x W b = linTerm dot_S1024x512_S512x512_S1024x512_1_1_0_0_n_n x W b shapeCasts_S1x512_S1x512 broadcasts_S1x512_S1024x512 := rfl

theorem pay4_eq (x : Vec F S1024x512 .f32) (W : Vec F S512x512 .f32) (b : Vec F S1x512 .f32) :
    k0_pay4 x W b = linTerm dot_S1024x512_S512x512_S1024x512_1_1_0_0_n_n x W b shapeCasts_S1x512_S1x512 broadcasts_S1x512_S1024x512 := rfl

theorem pay56_eq (x : Vec F S1024x512 .f32) (W : Vec F S512x512 .f32) (b : Vec F S1x512 .f32) :
    k0_pay6 (k0_pay5 x W) b = linTerm dot_S1024x512_S512x512_S1024x512_1_1_0_0_n_n x W b shapeCasts_S1x512_S1x512 broadcasts_S1x512_S1024x512 := rfl

theorem pay2_eq (x : Vec F S1024x512 .f32) (W1 : Vec F S256x512 .f32) (b1 : Vec F S1x256 .f32) (W2 : Vec F S128x256 .f32) (b2 : Vec F S1x128 .f32) :
    k0_pay2 x W1 b1 W2 b2
      = reluTerm (linTerm dot_S1024x256_S128x256_S1024x128_1_1_0_0_n_n
          (reluTerm (linTerm dot_S1024x512_S256x512_S1024x256_1_1_0_0_n_n x W1 b1 shapeCasts_S1x256_S1x256 broadcasts_S1x256_S1024x256))
          W2 b2 shapeCasts_S1x128_S1x128 broadcasts_S1x128_S1024x128) := rfl

theorem tail_eq (pat : FVec F S1024x128 .f32) (h0 h1 h2 h3 h4 h5 h6 v165 : FVec F S1024x64 .f32) (v166 : FVec F S1024x1024 .f32)
    (Wo : Vec F S512x512 .f32) (bo : Vec F S1x512 .f32) (W3p : Vec F S256x128 .f32) (W3a : Vec F S256x512 .f32) (b3 : Vec F S1x256 .f32)
    (W4 : Vec F S512x256 .f32) (b4 : Vec F S1x512 .f32) :
    k0_pay1 (k0_pay21 pat h0 h1 h2 h3 h4 h5 h6 v165 v166 Wo bo W3p W3a b3 W4) (k0_pay22 b4)
      = tanh (linTerm dot_S1024x256_S512x256_S1024x512_1_1_0_0_n_n
          (reluTerm (lin2Term pat
            (linTerm dot_S1024x512_S512x512_S1024x512_1_1_0_0_n_n (cat8 h0 h1 h2 h3 h4 h5 h6 (lastHead v166 v165)) Wo bo
              shapeCasts_S1x512_S1x512 broadcasts_S1x512_S1024x512)
            W3p W3a b3))
          W4 b4 shapeCasts_S1x512_S1x512 broadcasts_S1x512_S1024x512) := rfl

end Terms

/-! ### Their values at the ideal instance -/

/-- Entry (i, j) of the affine layer: the sum of products over the contraction coordinate, plus the bias row's entry j. -/
theorem linTerm_eq {M K N : ℕ} (d : DotDims ⟨2, ![M, K]⟩ ⟨2, ![N, K]⟩ ⟨2, ![M, N]⟩) (hd : d = DotDims.transposedRhs M K N)
    (x : FVec Ideal ⟨2, ![M, K]⟩ .f32) (W : FVec Ideal ⟨2, ![N, K]⟩ .f32) (b : FVec Ideal ⟨2, ![1, N]⟩ .f32)
    (hsc : (⟨2, ![1, N]⟩ : Shape).ShapeCasts ⟨2, ![1, N]⟩) (hbc : (⟨2, ![1, N]⟩ : Shape).Broadcasts ⟨2, ![M, N]⟩) :
    linTerm (F := Ideal) d x W b hsc hbc = Cert.Spec.lin x W (Cert.Spec.row b) := by
  subst hd
  funext e
  obtain ⟨i, j, rfl⟩ : ∃ (i : Fin M) (j : Fin N), e = ix2 i j := ⟨e 0, e 1, eq_ix2 e⟩
  rw [Cert.Spec.lin_apply]
  unfold linTerm
  rw [addf_apply]
  congr 1
  · exact Cert.LibDotNT.matmul_zero_nt M K N none x W i j
  · rw [broadcastTo_1b_ab_apply, shapeCast_self]; rfl

theorem reluTerm_eq {M N : ℕ} (a : FVec Ideal ⟨2, ![M, N]⟩ .f32) : reluTerm (F := Ideal) a = Cert.Spec.relu a := rfl

/-- The layer over two arrays side by side: both products into zero arrays, added, plus the bias row's entry j. -/
theorem lin2Term_eq (p : FVec Ideal S1024x128 .f32) (a : FVec Ideal S1024x512 .f32) (Wp : FVec Ideal S256x128 .f32)
    (Wa : FVec Ideal S256x512 .f32) (b : FVec Ideal S1x256 .f32) :
    lin2Term (F := Ideal) p a Wp Wa b = Cert.Spec.lin2 p a Wp Wa (Cert.Spec.row b) := by
  funext e
  obtain ⟨i, j, rfl⟩ : ∃ (i : Fin 1024) (j : Fin 256), e = ix2 i j := ⟨e 0, e 1, eq_ix2 e⟩
  rw [Cert.Spec.lin2_apply]
  unfold lin2Term
  rw [addf_apply, addf_apply, shapeCast_self, shapeCast_self]
  congr 1
  · congr 1
    · exact Cert.LibDotNT.matmul_zero_nt 1024 128 256 none p Wp i j
    · exact Cert.LibDotNT.matmul_zero_nt 1024 512 256 none a Wa i j
  · rw [broadcastTo_1b_ab_apply, shapeCast_self]; rfl

/-- Column c of eight 64-column pieces laid side by side is column c % 64 of piece c / 64. -/
theorem cat8_apply (g : Fin 8 → FVec Ideal S1024x64 .f32) (i : Fin 1024) (c : Fin 512) :
    cat8 (F := Ideal) (g 0) (g 1) (g 2) (g 3) (g 4) (g 5) (g 6) (g 7) (ix2 i c)
      = g (Cert.Spec.headOf c) (ix2 i (Cert.Spec.posOf c)) := by
  have hc : c.val = 64 * (Cert.Spec.headOf c).val + (Cert.Spec.posOf c).val := by
    show c.val = 64 * (c.val / 64) + c.val % 64; omega
  generalize Cert.Spec.posOf c = d at hc ⊢
  generalize Cert.Spec.headOf c = h at hc ⊢
  unfold cat8
  have hoff : ∀ b : Fin S1024x64.rank, b.cast (rfl : S1024x64.rank = S1024x512.rank) ≠ (1 : Fin S1024x512.rank) →
      ((ix2 i d : S1024x64.Idx) b).val = ((ix2 i c : S1024x512.Idx) (b.cast rfl)).val := by
    intro b hb
    match b with
    | ⟨0, _⟩ => rfl
    | ⟨1, _⟩ => exact absurd rfl hb
  match h with
  | ⟨0, _⟩ => exact concatenate_apply_piece 1 _ _ (ix2 i c) 0 (by show (0 : ℕ) < 8; omega) S1024x64 (g 0) rfl rfl 0 rfl (ix2 i d) hoff (by show 0 + d.val = c.val; have hc' : c.val = 64 * 0 + d.val := hc; omega)
  | ⟨1, _⟩ => exact concatenate_apply_piece 1 _ _ (ix2 i c) 1 (by show (1 : ℕ) < 8; omega) S1024x64 (g 1) rfl rfl 64 rfl (ix2 i d) hoff (by show 64 + d.val = c.val; have hc' : c.val = 64 * 1 + d.val := hc; omega)
  | ⟨2, _⟩ => exact concatenate_apply_piece 1 _ _ (ix2 i c) 2 (by show (2 : ℕ) < 8; omega) S1024x64 (g 2) rfl rfl 128 rfl (ix2 i d) hoff (by show 128 + d.val = c.val; have hc' : c.val = 64 * 2 + d.val := hc; omega)
  | ⟨3, _⟩ => exact concatenate_apply_piece 1 _ _ (ix2 i c) 3 (by show (3 : ℕ) < 8; omega) S1024x64 (g 3) rfl rfl 192 rfl (ix2 i d) hoff (by show 192 + d.val = c.val; have hc' : c.val = 64 * 3 + d.val := hc; omega)
  | ⟨4, _⟩ => exact concatenate_apply_piece 1 _ _ (ix2 i c) 4 (by show (4 : ℕ) < 8; omega) S1024x64 (g 4) rfl rfl 256 rfl (ix2 i d) hoff (by show 256 + d.val = c.val; have hc' : c.val = 64 * 4 + d.val := hc; omega)
  | ⟨5, _⟩ => exact concatenate_apply_piece 1 _ _ (ix2 i c) 5 (by show (5 : ℕ) < 8; omega) S1024x64 (g 5) rfl rfl 320 rfl (ix2 i d) hoff (by show 320 + d.val = c.val; have hc' : c.val = 64 * 5 + d.val := hc; omega)
  | ⟨6, _⟩ => exact concatenate_apply_piece 1 _ _ (ix2 i c) 6 (by show (6 : ℕ) < 8; omega) S1024x64 (g 6) rfl rfl 384 rfl (ix2 i d) hoff (by show 384 + d.val = c.val; have hc' : c.val = 64 * 6 + d.val := hc; omega)
  | ⟨7, _⟩ => exact concatenate_apply_piece 1 _ _ (ix2 i c) 7 (by show (7 : ℕ) < 8; omega) S1024x64 (g 7) rfl rfl 448 rfl (ix2 i d) hoff (by show 448 + d.val = c.val; have hc' : c.val = 64 * 7 + d.val := hc; omega)

end Cert.KernelIdeal.KL

end
-- ==== Proof.KOut.lean ====
/-
  The kernel body as one function of its eighteen loaded blocks, and its value.

  `kTerm` is the pure term the body stores into the output block: the first multi-layer perceptron (two rectified
  affine layers), the three attention projections, the eight heads, their concatenation, the output projection, the
  second perceptron applied to the perceptron's output and the attention's output side by side, and the hyperbolic
  tangent. Unfolded, each piece is one of the layer terms or one head, so at the ideal values `kTerm` is the
  specification's network with the attention stage in the arrangement that normalises after the weighted sum.
-/
import proofs.«111305_g82875688944205_cont_9to1c4b_701_3_alg».proof.Proof.KHeads
import proofs.«111305_g82875688944205_cont_9to1c4b_701_3_alg».proof.Proof.KLin

noncomputable section

namespace Cert.KernelIdeal.KO

open Cert.KernelIdeal Cert.KernelIdeal.Gen Idealize.ShloMosaic Idealize.ShloMosaic.ValueIdx Cert.Spec
open Cert.KernelIdeal

/-- What the body stores, from the blocks it loads. -/
def kTerm {F : FTy → Type} [FloatOps F] (x0 : Vec F S1024x512 .f32) (x1 : Vec F S256x512 .f32) (x2 : Vec F S1x256 .f32) (x3 : Vec F S128x256 .f32) (x4 : Vec F S1x128 .f32) (x5 : Vec F S512x512 .f32) (x6 : Vec F S1x512 .f32) (x7 : Vec F S512x512 .f32) (x8 : Vec F S1x512 .f32) (x9 : Vec F S512x512 .f32) (x10 : Vec F S1x512 .f32) (x11 : Vec F S512x512 .f32) (x12 : Vec F S1x512 .f32) (x13 : Vec F S256x128 .f32) (x14 : Vec F S256x512 .f32) (x15 : Vec F S1x256 .f32) (x16 : Vec F S512x256 .f32) (x17 : Vec F S1x512 .f32) : FVec F S1024x512 .f32 :=
  k0_pay1 (k0_pay21 (k0_pay2 x0 x1 x2 x3 x4) (k0_pay7 (k0_pay3 x0 x5 x6) (k0_pay4 x0 x7 x8) (k0_pay5 x0 x9) x10) (k0_pay8 (k0_pay3 x0 x5 x6) (k0_pay4 x0 x7 x8) (k0_pay5 x0 x9) x10) (k0_pay11 (k0_pay9 (k0_pay5 x0 x9) x10) (k0_pay10 (k0_pay3 x0 x5 x6) (k0_pay4 x0 x7 x8))) (k0_pay12 (k0_pay3 x0 x5 x6) (k0_pay4 x0 x7 x8) (k0_pay6 (k0_pay5 x0 x9) x10)) (k0_pay16 (k0_pay13 (k0_pay6 (k0_pay5 x0 x9) x10)) (k0_pay14 (k0_pay3 x0 x5 x6) (k0_pay4 x0 x7 x8)) (k0_pay15 (k0_pay3 x0 x5 x6) (k0_pay4 x0 x7 x8))) (k0_pay17 (k0_pay3 x0 x5 x6) (k0_pay4 x0 x7 x8) (k0_pay6 (k0_pay5 x0 x9) x10)) (k0_pay18 (k0_pay3 x0 x5 x6) (k0_pay4 x0 x7 x8) (k0_pay6 (k0_pay5 x0 x9) x10)) (k0_pay19 (k0_pay6 (k0_pay5 x0 x9) x10)) (k0_pay20 (k0_pay3 x0 x5 x6) (k0_pay4 x0 x7 x8)) x11 x12 x13 x14 x15 x16) (k0_pay22 x17)

/-- The last head's average is the common head term. -/
theorem lastHead_eq {F : FTy → Type} [FloatOps F] (s : FVec F S1024x1024 .f32) (vh : FVec F S1024x64 .f32) :
    KL.lastHead s vh = KH.headTail s vh := rfl

/-- The eight heads side by side are the attention stage: column c is position c % 64 of head c / 64. -/
theorem cat_heads (q k v : FVec Ideal S1024x512 .f32) :
    KL.cat8 (F := Ideal) (KH.headTerm ![0, 0] slices_S1024x512_o0_0_S1024x64 q k v)
      (KH.headTerm ![0, 64] slices_S1024x512_o0_64_S1024x64 q k v)
      (KH.headTerm ![0, 128] slices_S1024x512_o0_128_S1024x64 q k v)
      (KH.headTerm ![0, 192] slices_S1024x512_o0_192_S1024x64 q k v)
      (KH.headTerm ![0, 256] slices_S1024x512_o0_256_S1024x64 q k v)
      (KH.headTerm ![0, 320] slices_S1024x512_o0_320_S1024x64 q k v)
      (KH.headTerm ![0, 384] slices_S1024x512_o0_384_S1024x64 q k v)
      (KH.headTerm ![0, 448] slices_S1024x512_o0_448_S1024x64 q k v)
      = attK q k v := by
  funext e
  obtain ⟨i, c, rfl⟩ : ∃ (i : Fin 1024) (c : Fin 512), e = ix2 i c := ⟨e 0, e 1, eq_ix2 e⟩
  rw [attK_apply]
  refine (KL.cat8_apply ![KH.headTerm (F := Ideal) ![0, 0] slices_S1024x512_o0_0_S1024x64 q k v, KH.headTerm (F := Ideal) ![0, 64] slices_S1024x512_o0_64_S1024x64 q k v, KH.headTerm (F := Ideal) ![0, 128] slices_S1024x512_o0_128_S1024x64 q k v, KH.headTerm (F := Ideal) ![0, 192] slices_S1024x512_o0_192_S1024x64 q k v, KH.headTerm (F := Ideal) ![0, 256] slices_S1024x512_o0_256_S1024x64 q k v, KH.headTerm (F := Ideal) ![0, 320] slices_S1024x512_o0_320_S1024x64 q k v, KH.headTerm (F := Ideal) ![0, 384] slices_S1024x512_o0_384_S1024x64 q k v, KH.headTerm (F := Ideal) ![0, 448] slices_S1024x512_o0_448_S1024x64 q k v] i c).trans ?_
  generalize posOf c = d
  generalize headOf c = h
  match h with
  | ⟨0, _⟩ => exact KH.headTerm_apply 0 slices_S1024x512_o0_0_S1024x64 ⟨0, by omega⟩ rfl q k v i d
  | ⟨1, _⟩ => exact KH.headTerm_apply 64 slices_S1024x512_o0_64_S1024x64 ⟨1, by omega⟩ rfl q k v i d
  | ⟨2, _⟩ => exact KH.headTerm_apply 128 slices_S1024x512_o0_128_S1024x64 ⟨2, by omega⟩ rfl q k v i d
  | ⟨3, _⟩ => exact KH.headTerm_apply 192 slices_S1024x512_o0_192_S1024x64 ⟨3, by omega⟩ rfl q k v i d
  | ⟨4, _⟩ => exact KH.headTerm_apply 256 slices_S1024x512_o0_256_S1024x64 ⟨4, by omega⟩ rfl q k v i d
  | ⟨5, _⟩ => exact KH.headTerm_apply 320 slices_S1024x512_o0_320_S1024x64 ⟨5, by omega⟩ rfl q k v i d
  | ⟨6, _⟩ => exact KH.headTerm_apply 384 slices_S1024x512_o0_384_S1024x64 ⟨6, by omega⟩ rfl q k v i d
  | ⟨7, _⟩ => exact KH.headTerm_apply 448 slices_S1024x512_o0_448_S1024x64 ⟨7, by omega⟩ rfl q k v i d

/-- At the ideal values the body's term is the network, attention normalised after the weighted sum. -/
theorem kTerm_eq (x0 : FVec Ideal S1024x512 .f32) (x1 : FVec Ideal S256x512 .f32) (x2 : FVec Ideal S1x256 .f32) (x3 : FVec Ideal S128x256 .f32)
    (x4 : FVec Ideal S1x128 .f32) (x5 : FVec Ideal S512x512 .f32) (x6 : FVec Ideal S1x512 .f32) (x7 : FVec Ideal S512x512 .f32)
    (x8 : FVec Ideal S1x512 .f32) (x9 : FVec Ideal S512x512 .f32) (x10 : FVec Ideal S1x512 .f32) (x11 : FVec Ideal S512x512 .f32)
    (x12 : FVec Ideal S1x512 .f32) (x13 : FVec Ideal S256x128 .f32) (x14 : FVec Ideal S256x512 .f32) (x15 : FVec Ideal S1x256 .f32)
    (x16 : FVec Ideal S512x256 .f32) (x17 : FVec Ideal S1x512 .f32) :
    kTerm (F := Ideal) x0 x1 x2 x3 x4 x5 x6 x7 x8 x9 x10 x11 x12 x13 x14 x15 x16 x17
      = body attK x0 x1 (row x2) x3 (row x4) x5 (row x6) x7 (row x8) x9 (row x10) x11 (row x12) x13 x14 (row x15) x16 (row x17) := by
  unfold kTerm
  rw [KL.tail_eq, lastHead_eq, KH.head0_eq, KH.head1_eq, KH.head2_eq, KH.head3_eq, KH.head4_eq, KH.head5_eq, KH.head6_eq, KH.head7_eq,
    KL.pay2_eq, KL.pay3_eq, KL.pay4_eq, KL.pay56_eq]
  rw [cat_heads]
  rw [KL.linTerm_eq dot_S1024x512_S512x512_S1024x512_1_1_0_0_n_n rfl x0 x5 x6,
    KL.linTerm_eq dot_S1024x512_S512x512_S1024x512_1_1_0_0_n_n rfl x0 x7 x8,
    KL.linTerm_eq dot_S1024x512_S512x512_S1024x512_1_1_0_0_n_n rfl x0 x9 x10,
    KL.linTerm_eq dot_S1024x512_S256x512_S1024x256_1_1_0_0_n_n rfl x0 x1 x2, KL.reluTerm_eq,
    KL.linTerm_eq dot_S1024x256_S128x256_S1024x128_1_1_0_0_n_n rfl _ x3 x4, KL.reluTerm_eq,
    KL.linTerm_eq dot_S1024x512_S512x512_S1024x512_1_1_0_0_n_n rfl _ x11 x12,
    KL.lin2Term_eq, KL.reluTerm_eq,
    KL.linTerm_eq dot_S1024x256_S512x256_S1024x512_1_1_0_0_n_n rfl _ x16 x17]
  rfl

end Cert.KernelIdeal.KO

end
-- ==== Proof.KValue.lean ====
/-
  The kernel's run, read: the output array is the network of the launch arguments.

  The kernel has one grid point and every window is a whole array at block index 0, so each input block is the array
  the region finds and the one output block is the whole output array: what the point writes back is the body's term
  of those arrays, and it covers the array. Before the call @main slices the weight matrix W3 into its first 128 and
  its last 512 columns and reshapes each bias vector [N] to one row [1, N]; read at an entry, a reshaped bias row is
  the vector (`row` of the reshape is `vec`), and the two slices are `left` and `right`.
-/
import proofs.«111305_g82875688944205_cont_9to1c4b_701_3_alg».proof.Proof.Gen.KernelIdeal.Value
import proofs.«111305_g82875688944205_cont_9to1c4b_701_3_alg».proof.Proof.KOut
import Idealize.ShloMosaic.Lib.StableHlo.Run

set_option maxRecDepth 16384

noncomputable section

namespace Cert.KernelIdeal.KV

open Cert.KernelIdeal Cert.KernelIdeal.Gen Idealize.ShloMosaic Idealize.ShloMosaic.TcCoe Idealize.ShloMosaic.ValueIdx Idealize.SL.Sem Cert.Spec
open Idealize.ShloMosaic.Pipeline (Dat)
open Cert.KernelIdeal.KO

variable (m : (ℓ : Loc nD τ sig) → Buf (Elt Ideal) ℓ) (ρ : Dev nD → PrngReg)

theorem hz : (![0, 0] : Fin 2 → Nat) = fun _ => 0 := funext fun a => by fin_cases a <;> rfl

/-- At the one grid point every window's block index is (0, 0). -/
theorem idx_zero : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_15.index t (0 : Fin 2) = 0 ∧ win0_15.index t (1 : Fin 2) = 0
    ∧ win0_16.index t (0 : Fin 2) = 0 ∧ win0_16.index t (1 : Fin 2) = 0
    ∧ win0_17.index t (0 : Fin 2) = 0 ∧ win0_17.index t (1 : Fin 2) = 0
    ∧ win0_18.index t (0 : Fin 2) = 0 ∧ win0_18.index t (1 : Fin 2) = 0 :=
  (by decide +kernel : ∀ t : Fin grid0.N, _)

/-! ## Each input block is the whole array the region finds -/

theorem blk0 (c : Dev nD) (t : Fin cfg0.N) : (iblk m c 0 t : Vec Ideal S1024x512 .f32) = V m c main_arg0 := by
  funext j
  show V m c main_arg0 (((cfg0.win 0).blk t).view.emb j) = V m c main_arg0 j
  refine congrArg (V m c main_arg0) (funext fun a => Fin.ext ?_)
  have e := idx_zero t
  match a with
  | ⟨0, _⟩ => show win0_0.index t (0 : Fin 2) * 1024 + 1 * (j 0).val = (j 0).val; omega
  | ⟨1, _⟩ => show win0_0.index t (1 : Fin 2) * 512 + 1 * (j 1).val = (j 1).val; omega

theorem blk1 (c : Dev nD) (t : Fin cfg0.N) : (iblk m c 1 t : Vec Ideal S256x512 .f32) = V m c main_arg1 := by
  funext j
  show V m c main_arg1 (((cfg0.win 1).blk t).view.emb j) = V m c main_arg1 j
  refine congrArg (V m c main_arg1) (funext fun a => Fin.ext ?_)
  have e := idx_zero t
  match a with
  | ⟨0, _⟩ => show win0_1.index t (0 : Fin 2) * 256 + 1 * (j 0).val = (j 0).val; omega
  | ⟨1, _⟩ => show win0_1.index t (1 : Fin 2) * 512 + 1 * (j 1).val = (j 1).val; omega

theorem blk2 (c : Dev nD) (t : Fin cfg0.N) : (iblk m c 2 t : Vec Ideal S1x256 .f32) = V m c main_v2 := by
  funext j
  show V m c main_v2 (((cfg0.win 2).blk t).view.emb j) = V m c main_v2 j
  refine congrArg (V m c main_v2) (funext fun a => Fin.ext ?_)
  have e := idx_zero t
  match a with
  | ⟨0, _⟩ => show win0_2.index t (0 : Fin 2) * 1 + 1 * (j 0).val = (j 0).val; omega
  | ⟨1, _⟩ => show win0_2.index t (1 : Fin 2) * 256 + 1 * (j 1).val = (j 1).val; omega

theorem blk3 (c : Dev nD) (t : Fin cfg0.N) : (iblk m c 3 t : Vec Ideal S128x256 .f32) = V m c main_arg3 := by
  funext j
  show V m c main_arg3 (((cfg0.win 3).blk t).view.emb j) = V m c main_arg3 j
  refine congrArg (V m c main_arg3) (funext fun a => Fin.ext ?_)
  have e := idx_zero t
  match a with
  | ⟨0, _⟩ => show win0_3.index t (0 : Fin 2) * 128 + 1 * (j 0).val = (j 0).val; omega
  | ⟨1, _⟩ => show win0_3.index t (1 : Fin 2) * 256 + 1 * (j 1).val = (j 1).val; omega

theorem blk4 (c : Dev nD) (t : Fin cfg0.N) : (iblk m c 4 t : Vec Ideal S1x128 .f32) = V m c main_v3 := by
  funext j
  show V m c main_v3 (((cfg0.win 4).blk t).view.emb j) = V m c main_v3 j
  refine congrArg (V m c main_v3) (funext fun a => Fin.ext ?_)
  have e := idx_zero t
  match a with
  | ⟨0, _⟩ => show win0_4.index t (0 : Fin 2) * 1 + 1 * (j 0).val = (j 0).val; omega
  | ⟨1, _⟩ => show win0_4.index t (1 : Fin 2) * 128 + 1 * (j 1).val = (j 1).val; omega

theorem blk5 (c : Dev nD) (t : Fin cfg0.N) : (iblk m c 5 t : Vec Ideal S512x512 .f32) = V m c main_arg5 := by
  funext j
  show V m c main_arg5 (((cfg0.win 5).blk t).view.emb j) = V m c main_arg5 j
  refine congrArg (V m c main_arg5) (funext fun a => Fin.ext ?_)
  have e := idx_zero t
  match a with
  | ⟨0, _⟩ => show win0_5.index t (0 : Fin 2) * 512 + 1 * (j 0).val = (j 0).val; omega
  | ⟨1, _⟩ => show win0_5.index t (1 : Fin 2) * 512 + 1 * (j 1).val = (j 1).val; omega

theorem blk6 (c : Dev nD) (t : Fin cfg0.N) : (iblk m c 6 t : Vec Ideal S1x512 .f32) = V m c main_v4 := by
  funext j
  show V m c main_v4 (((cfg0.win 6).blk t).view.emb j) = V m c main_v4 j
  refine congrArg (V m c main_v4) (funext fun a => Fin.ext ?_)
  have e := idx_zero t
  match a with
  | ⟨0, _⟩ => show win0_6.index t (0 : Fin 2) * 1 + 1 * (j 0).val = (j 0).val; omega
  | ⟨1, _⟩ => show win0_6.index t (1 : Fin 2) * 512 + 1 * (j 1).val = (j 1).val; omega

theorem blk7 (c : Dev nD) (t : Fin cfg0.N) : (iblk m c 7 t : Vec Ideal S512x512 .f32) = V m c main_arg7 := by
  funext j
  show V m c main_arg7 (((cfg0.win 7).blk t).view.emb j) = V m c main_arg7 j
  refine congrArg (V m c main_arg7) (funext fun a => Fin.ext ?_)
  have e := idx_zero t
  match a with
  | ⟨0, _⟩ => show win0_7.index t (0 : Fin 2) * 512 + 1 * (j 0).val = (j 0).val; omega
  | ⟨1, _⟩ => show win0_7.index t (1 : Fin 2) * 512 + 1 * (j 1).val = (j 1).val; omega

theorem blk8 (c : Dev nD) (t : Fin cfg0.N) : (iblk m c 8 t : Vec Ideal S1x512 .f32) = V m c main_v5 := by
  funext j
  show V m c main_v5 (((cfg0.win 8).blk t).view.emb j) = V m c main_v5 j
  refine congrArg (V m c main_v5) (funext fun a => Fin.ext ?_)
  have e := idx_zero t
  match a with
  | ⟨0, _⟩ => show win0_8.index t (0 : Fin 2) * 1 + 1 * (j 0).val = (j 0).val; omega
  | ⟨1, _⟩ => show win0_8.index t (1 : Fin 2) * 512 + 1 * (j 1).val = (j 1).val; omega

theorem blk9 (c : Dev nD) (t : Fin cfg0.N) : (iblk m c 9 t : Vec Ideal S512x512 .f32) = V m c main_arg9 := by
  funext j
  show V m c main_arg9 (((cfg0.win 9).blk t).view.emb j) = V m c main_arg9 j
  refine congrArg (V m c main_arg9) (funext fun a => Fin.ext ?_)
  have e := idx_zero t
  match a with
  | ⟨0, _⟩ => show win0_9.index t (0 : Fin 2) * 512 + 1 * (j 0).val = (j 0).val; omega
  | ⟨1, _⟩ => show win0_9.index t (1 : Fin 2) * 512 + 1 * (j 1).val = (j 1).val; omega

theorem blk10 (c : Dev nD) (t : Fin cfg0.N) : (iblk m c 10 t : Vec Ideal S1x512 .f32) = V m c main_v6 := by
  funext j
  show V m c main_v6 (((cfg0.win 10).blk t).view.emb j) = V m c main_v6 j
  refine congrArg (V m c main_v6) (funext fun a => Fin.ext ?_)
  have e := idx_zero t
  match a with
  | ⟨0, _⟩ => show win0_10.index t (0 : Fin 2) * 1 + 1 * (j 0).val = (j 0).val; omega
  | ⟨1, _⟩ => show win0_10.index t (1 : Fin 2) * 512 + 1 * (j 1).val = (j 1).val; omega

theorem blk11 (c : Dev nD) (t : Fin cfg0.N) : (iblk m c 11 t : Vec Ideal S512x512 .f32) = V m c main_arg11 := by
  funext j
  show V m c main_arg11 (((cfg0.win 11).blk t).view.emb j) = V m c main_arg11 j
  refine congrArg (V m c main_arg11) (funext fun a => Fin.ext ?_)
  have e := idx_zero t
  match a with
  | ⟨0, _⟩ => show win0_11.index t (0 : Fin 2) * 512 + 1 * (j 0).val = (j 0).val; omega
  | ⟨1, _⟩ => show win0_11.index t (1 : Fin 2) * 512 + 1 * (j 1).val = (j 1).val; omega

theorem blk12 (c : Dev nD) (t : Fin cfg0.N) : (iblk m c 12 t : Vec Ideal S1x512 .f32) = V m c main_v7 := by
  funext j
  show V m c main_v7 (((cfg0.win 12).blk t).view.emb j) = V m c main_v7 j
  refine congrArg (V m c main_v7) (funext fun a => Fin.ext ?_)
  have e := idx_zero t
  match a with
  | ⟨0, _⟩ => show win0_12.index t (0 : Fin 2) * 1 + 1 * (j 0).val = (j 0).val; omega
  | ⟨1, _⟩ => show win0_12.index t (1 : Fin 2) * 512 + 1 * (j 1).val = (j 1).val; omega

theorem blk13 (c : Dev nD) (t : Fin cfg0.N) : (iblk m c 13 t : Vec Ideal S256x128 .f32) = V m c main_v0 := by
  funext j
  show V m c main_v0 (((cfg0.win 13).blk t).view.emb j) = V m c main_v0 j
  refine congrArg (V m c main_v0) (funext fun a => Fin.ext ?_)
  have e := idx_zero t
  match a with
  | ⟨0, _⟩ => show win0_13.index t (0 : Fin 2) * 256 + 1 * (j 0).val = (j 0).val; omega
  | ⟨1, _⟩ => show win0_13.index t (1 : Fin 2) * 128 + 1 * (j 1).val = (j 1).val; omega

theorem blk14 (c : Dev nD) (t : Fin cfg0.N) : (iblk m c 14 t : Vec Ideal S256x512 .f32) = V m c main_v1 := by
  funext j
  show V m c main_v1 (((cfg0.win 14).blk t).view.emb j) = V m c main_v1 j
  refine congrArg (V m c main_v1) (funext fun a => Fin.ext ?_)
  have e := idx_zero t
  match a with
  | ⟨0, _⟩ => show win0_14.index t (0 : Fin 2) * 256 + 1 * (j 0).val = (j 0).val; omega
  | ⟨1, _⟩ => show win0_14.index t (1 : Fin 2) * 512 + 1 * (j 1).val = (j 1).val; omega

theorem blk15 (c : Dev nD) (t : Fin cfg0.N) : (iblk m c 15 t : Vec Ideal S1x256 .f32) = V m c main_v8 := by
  funext j
  show V m c main_v8 (((cfg0.win 15).blk t).view.emb j) = V m c main_v8 j
  refine congrArg (V m c main_v8) (funext fun a => Fin.ext ?_)
  have e := idx_zero t
  match a with
  | ⟨0, _⟩ => show win0_15.index t (0 : Fin 2) * 1 + 1 * (j 0).val = (j 0).val; omega
  | ⟨1, _⟩ => show win0_15.index t (1 : Fin 2) * 256 + 1 * (j 1).val = (j 1).val; omega

theorem blk16 (c : Dev nD) (t : Fin cfg0.N) : (iblk m c 16 t : Vec Ideal S512x256 .f32) = V m c main_arg15 := by
  funext j
  show V m c main_arg15 (((cfg0.win 16).blk t).view.emb j) = V m c main_arg15 j
  refine congrArg (V m c main_arg15) (funext fun a => Fin.ext ?_)
  have e := idx_zero t
  match a with
  | ⟨0, _⟩ => show win0_16.index t (0 : Fin 2) * 512 + 1 * (j 0).val = (j 0).val; omega
  | ⟨1, _⟩ => show win0_16.index t (1 : Fin 2) * 256 + 1 * (j 1).val = (j 1).val; omega

theorem blk17 (c : Dev nD) (t : Fin cfg0.N) : (iblk m c 17 t : Vec Ideal S1x512 .f32) = V m c main_v9 := by
  funext j
  show V m c main_v9 (((cfg0.win 17).blk t).view.emb j) = V m c main_v9 j
  refine congrArg (V m c main_v9) (funext fun a => Fin.ext ?_)
  have e := idx_zero t
  match a with
  | ⟨0, _⟩ => show win0_17.index t (0 : Fin 2) * 1 + 1 * (j 0).val = (j 0).val; omega
  | ⟨1, _⟩ => show win0_17.index t (1 : Fin 2) * 512 + 1 * (j 1).val = (j 1).val; omega

/-! ## What the point writes back, and the output array -/

/-- The output array's contents after the run, as the body's term of the arrays the region finds. -/
def G (c : Dev nD) : S1024x512.Idx → EReal :=
  kTerm (F := Ideal) (V m c main_arg0) (V m c main_arg1) (V m c main_v2) (V m c main_arg3) (V m c main_v3) (V m c main_arg5) (V m c main_v4) (V m c main_arg7) (V m c main_v5) (V m c main_arg9) (V m c main_v6) (V m c main_arg11) (V m c main_v7) (V m c main_v0) (V m c main_v1) (V m c main_v8) (V m c main_arg15) (V m c main_v9)

/-- What the grid point writes back is the one block — the whole — of `G`. -/
theorem flushed_eq (c : Dev nD) (t : Fin cfg0.N) :
    (dats m 0 c).flushed 18 t = ((cfg0.win 18).blk t).view.read (Elt Ideal) (G m c) := by
  rw [Value.flushed18]
  unfold out0_18
  rw [View.canon_unit_zero hz]
  simp only [View.ld_unit_zero (S := S1024x512) hz, View.ld_unit_zero (S := S256x512) hz, View.ld_unit_zero (S := S1x256) hz,
    View.ld_unit_zero (S := S128x256) hz, View.ld_unit_zero (S := S1x128) hz, View.ld_unit_zero (S := S512x512) hz,
    View.ld_unit_zero (S := S1x512) hz, View.ld_unit_zero (S := S256x128) hz, View.ld_unit_zero (S := S512x256) hz]
  have hk : kTerm (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) = G m c := by
    unfold G
    rw [blk0 m c t, blk1 m c t, blk2 m c t, blk3 m c t, blk4 m c t, blk5 m c t, blk6 m c t, blk7 m c t, blk8 m c t, blk9 m c t, blk10 m c t, blk11 m c t, blk12 m c t, blk13 m c t, blk14 m c t, blk15 m c t, blk16 m c t, blk17 m c t]
  funext j
  show kTerm (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) j = G m c (((cfg0.win 18).blk t).view.emb j)
  rw [hk]
  refine congrArg (G m c) (funext fun a => Fin.ext ?_)
  have e := idx_zero t
  match a with
  | ⟨0, _⟩ => show (j 0).val = win0_18.index t (0 : Fin 2) * 1024 + 1 * (j 0).val; omega
  | ⟨1, _⟩ => show (j 1).val = win0_18.index t (1 : Fin 2) * 512 + 1 * (j 1).val; omega

/-- The one block is the whole array. -/
theorem mem_blk (t : Fin cfg0.N) (i : S1024x512.Idx) :
    i ∈ ((cfg0.win 18).blk t).view.set ↔ ∀ a : Fin 2, win0_18.index t a * S1024x512.size a ≤ (i a).val ∧ (i a).val < win0_18.index t a * S1024x512.size a + S1024x512.size a := by
  show i ∈ ((View.whole main_v10).slice (win0_18.rect t)).set ↔ _
  rw [View.set_slice_whole, Rect.mem_set_unit]
  exact Iff.rfl

theorem final (c : Dev nD) : (dats m 0 c).arrAt 18 cfg0.N = G m c :=
  (dats m 0 c).arrAt_eq_of_cover 18 _ (fun t _ => flushed_eq m c t) (fun i => by
    refine ⟨⟨0, by decide⟩, flush0_18 _, ?_⟩
    rw [mem_blk]
    have e := idx_zero ⟨0, by decide⟩
    intro a
    match a with
    | ⟨0, _⟩ => show win0_18.index _ (0 : Fin 2) * 1024 ≤ (i 0).val ∧ (i 0).val < win0_18.index _ (0 : Fin 2) * 1024 + 1024; have h0 : (i 0).val < 1024 := (i 0).isLt; omega
    | ⟨1, _⟩ => show win0_18.index _ (1 : Fin 2) * 512 ≤ (i 1).val ∧ (i 1).val < win0_18.index _ (1 : Fin 2) * 512 + 512; have h1 : (i 1).val < 512 := (i 1).isLt; omega)

/-! ## The arrays the host operations before the call write -/

theorem V_main_v2 (c : Dev nD) : (V m c main_v2 : S1x256.Idx → EReal) = shapeCast S1x256 (m ((c : Thread nD τ).loc main_arg2)) shapeCasts_S256_S1x256 := by
  dsimp only [V, hostOps0]; after_results; rfl

theorem V_main_v3 (c : Dev nD) : (V m c main_v3 : S1x128.Idx → EReal) = shapeCast S1x128 (m ((c : Thread nD τ).loc main_arg4)) shapeCasts_S128_S1x128 := by
  dsimp only [V, hostOps0]; after_results; rfl

theorem V_main_v4 (c : Dev nD) : (V m c main_v4 : S1x512.Idx → EReal) = shapeCast S1x512 (m ((c : Thread nD τ).loc main_arg6)) shapeCasts_S512_S1x512 := by
  dsimp only [V, hostOps0]; after_results; rfl

theorem V_main_v5 (c : Dev nD) : (V m c main_v5 : S1x512.Idx → EReal) = shapeCast S1x512 (m ((c : Thread nD τ).loc main_arg8)) shapeCasts_S512_S1x512 := by
  dsimp only [V, hostOps0]; after_results; rfl

theorem V_main_v6 (c : Dev nD) : (V m c main_v6 : S1x512.Idx → EReal) = shapeCast S1x512 (m ((c : Thread nD τ).loc main_arg10)) shapeCasts_S512_S1x512 := by
  dsimp only [V, hostOps0]; after_results; rfl

theorem V_main_v7 (c : Dev nD) : (V m c main_v7 : S1x512.Idx → EReal) = shapeCast S1x512 (m ((c : Thread nD τ).loc main_arg12)) shapeCasts_S512_S1x512 := by
  dsimp only [V, hostOps0]; after_results; rfl

theorem V_main_v8 (c : Dev nD) : (V m c main_v8 : S1x256.Idx → EReal) = shapeCast S1x256 (m ((c : Thread nD τ).loc main_arg14)) shapeCasts_S256_S1x256 := by
  dsimp only [V, hostOps0]; after_results; rfl

theorem V_main_v9 (c : Dev nD) : (V m c main_v9 : S1x512.Idx → EReal) = shapeCast S1x512 (m ((c : Thread nD τ).loc main_arg16)) shapeCasts_S512_S1x512 := by
  dsimp only [V, hostOps0]; after_results; rfl

theorem V_main_v0 (c : Dev nD) : (V m c main_v0 : S256x128.Idx → EReal)
    = extractStridedSlice S256x128 ![0, 0] (m ((c : Thread nD τ).loc main_arg13)) slices_S256x640_S256x128_0_0 := by
  dsimp only [V, hostOps0]; after_results

theorem V_main_v1 (c : Dev nD) : (V m c main_v1 : S256x512.Idx → EReal)
    = extractStridedSlice S256x512 ![0, 128] (m ((c : Thread nD τ).loc main_arg13)) slices_S256x640_S256x512_0_128 := by
  dsimp only [V, hostOps0]; after_results

/-- The one row of a vector reshaped to [1, N] is the vector. -/
theorem row_reshape {N : ℕ} (b : (⟨1, ![N]⟩ : Shape).Idx → EReal) (h : (⟨1, ![N]⟩ : Shape).ShapeCasts ⟨2, ![1, N]⟩) :
    row (shapeCast ⟨2, ![1, N]⟩ b h) = vec b :=
  funext fun j => shapeCast_a_1a_apply b h 0 j

/-- The slice of the first 128 columns. -/
theorem slice_left (W : (⟨2, ![256, 640]⟩ : Shape).Idx → EReal) (h : (⟨2, ![256, 640]⟩ : Shape).Slices ![0, 0] ⟨2, ![256, 128]⟩) :
    extractStridedSlice ⟨2, ![256, 128]⟩ ![0, 0] W h = left W := by
  funext e
  obtain ⟨a, j, rfl⟩ : ∃ (a : Fin 256) (j : Fin 128), e = ix2 a j := ⟨e 0, e 1, eq_ix2 e⟩
  exact slice2_axis1_apply 0 W h a j ⟨j.val, by have := j.isLt; omega⟩ (by show j.val = 0 + j.val; omega)

/-- The slice of the last 512 columns. -/
theorem slice_right (W : (⟨2, ![256, 640]⟩ : Shape).Idx → EReal) (h : (⟨2, ![256, 640]⟩ : Shape).Slices ![0, 128] ⟨2, ![256, 512]⟩) :
    extractStridedSlice ⟨2, ![256, 512]⟩ ![0, 128] W h = right W := by
  funext e
  obtain ⟨a, j, rfl⟩ : ∃ (a : Fin 256) (j : Fin 512), e = ix2 a j := ⟨e 0, e 1, eq_ix2 e⟩
  exact slice2_axis1_apply 128 W h a j ⟨128 + j.val, by have := j.isLt; omega⟩ rfl

/-- The network of the launch arguments, attention normalised after the weighted sum. -/
def out (c : Dev nD) : S1024x512.Idx → EReal :=
  body attK (m ((c : Thread nD τ).loc main_arg0)) (m ((c : Thread nD τ).loc main_arg1)) (vec (m ((c : Thread nD τ).loc main_arg2)))
    (m ((c : Thread nD τ).loc main_arg3)) (vec (m ((c : Thread nD τ).loc main_arg4)))
    (m ((c : Thread nD τ).loc main_arg5)) (vec (m ((c : Thread nD τ).loc main_arg6)))
    (m ((c : Thread nD τ).loc main_arg7)) (vec (m ((c : Thread nD τ).loc main_arg8)))
    (m ((c : Thread nD τ).loc main_arg9)) (vec (m ((c : Thread nD τ).loc main_arg10)))
    (m ((c : Thread nD τ).loc main_arg11)) (vec (m ((c : Thread nD τ).loc main_arg12)))
    (left (m ((c : Thread nD τ).loc main_arg13))) (right (m ((c : Thread nD τ).loc main_arg13))) (vec (m ((c : Thread nD τ).loc main_arg14)))
    (m ((c : Thread nD τ).loc main_arg15)) (vec (m ((c : Thread nD τ).loc main_arg16)))

theorem G_eq (c : Dev nD) : G m c = out m c := by
  unfold G
  rw [kTerm_eq]
  rw [V_main_arg0, V_main_arg1, V_main_arg3, V_main_arg5, V_main_arg7, V_main_arg9, V_main_arg11, V_main_arg15,
    V_main_v0, V_main_v1, V_main_v2, V_main_v3, V_main_v4, V_main_v5, V_main_v6, V_main_v7, V_main_v8, V_main_v9]
  rw [slice_left, slice_right]
  rw [row_reshape (m ((c : Thread nD τ).loc main_arg2)) shapeCasts_S256_S1x256,
    row_reshape (m ((c : Thread nD τ).loc main_arg4)) shapeCasts_S128_S1x128,
    row_reshape (m ((c : Thread nD τ).loc main_arg6)) shapeCasts_S512_S1x512,
    row_reshape (m ((c : Thread nD τ).loc main_arg8)) shapeCasts_S512_S1x512,
    row_reshape (m ((c : Thread nD τ).loc main_arg10)) shapeCasts_S512_S1x512,
    row_reshape (m ((c : Thread nD τ).loc main_arg12)) shapeCasts_S512_S1x512,
    row_reshape (m ((c : Thread nD τ).loc main_arg14)) shapeCasts_S256_S1x256,
    row_reshape (m ((c : Thread nD τ).loc main_arg16)) shapeCasts_S512_S1x512]
  rfl

/-- Every weakly fair execution of the kernel program ends with the output array at the network of the launch arguments and
    the arguments unchanged. -/
theorem run : θ_run defs (onTc (τ := τ) (main (F := Ideal))) ⟨m, fun _ => 0, ρ⟩ fun r => ∀ c : Dev nD,
      r.2.mem ((c : Thread nD τ).loc main_v10) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨(h c).1.trans ((final m c).trans (G_eq m c)), (h c).2⟩) (Value.run_blocks m ρ)

end Cert.KernelIdeal.KV

end
-- ==== Proof.RefAtt.lean ====
/-
  The reference's attention stage is `Spec.attR` of its three projections.

  With q, k, v the three projected arrays [1024, 512] (head h owns the columns 64 h + d), the reference
    * splits each into [1024, 8, 64] and moves the head axis to the front: entry (h, i, d) of the result is entry
      (i, 64 h + d) of the projection, because (i, h, d) and (i, 64 h + d) have the same row-major position;
    * takes, per head, the scores  (∑ d, q (i, ·) · k (j, ·)) / 8,  their row maximum from −∞ (taken once more against
      −∞), the weights exp (s − m), their row sum from +0.0, the normalised weights, and the weighted sum of v's rows;
    * moves the head axis back and merges [1024, 8, 64] into [1024, 512]: column c reads head c / 64 at position c % 64.
  Each stage is read at an index from the stage before it; the literals stay the bit patterns the program spells.
-/
import proofs.«111305_g82875688944205_cont_9to1c4b_701_3_alg».proof.Proof.RefRead
import proofs.«111305_g82875688944205_cont_9to1c4b_701_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

open scoped BigOperators

namespace Cert.ReferenceIdeal.RA

open Cert.ReferenceIdeal Cert.ReferenceIdeal.Gen Cert.ReferenceIdeal.ReadCopy Idealize.ShloMosaic Idealize.ShloMosaic.ValueIdx Cert.Spec

/-! ## Index equations -/

/-- (i, h, d) in [1024, 8, 64] and (i, 64 h + d) in [1024, 512] have the same row-major position. -/
theorem split_idx27 (i : Fin 1024) (h : Fin 8) (d : Fin 64) : idx_main_v27 (ix3 i h d) = ix2 i (hcol h d) :=
  funext fun a => Fin.ext (by
    have hi := i.isLt; have hh := h.isLt; have hd := d.isLt
    match a with
    | ⟨0, _⟩ => show ((i.val * 8 + h.val) * 64 + d.val) / 512 = i.val; omega
    | ⟨1, _⟩ => show ((i.val * 8 + h.val) * 64 + d.val) % 512 = 64 * h.val + d.val; omega)

theorem split_idx29 (i : Fin 1024) (h : Fin 8) (d : Fin 64) : idx_main_v29 (ix3 i h d) = ix2 i (hcol h d) :=
  split_idx27 i h d

theorem split_idx31 (i : Fin 1024) (h : Fin 8) (d : Fin 64) : idx_main_v31 (ix3 i h d) = ix2 i (hcol h d) :=
  split_idx27 i h d

/-- Moving the head axis to the front: entry (h, i, d) reads entry (i, h, d). -/
theorem swap_idx28 (h : Fin 8) (i : Fin 1024) (d : Fin 64) : idx_main_v28 (ix3 h i d) = ix3 i h d :=
  funext fun a => by match a with | ⟨0, _⟩ => rfl | ⟨1, _⟩ => rfl | ⟨2, _⟩ => rfl

theorem swap_idx30 (h : Fin 8) (i : Fin 1024) (d : Fin 64) : idx_main_v30 (ix3 h i d) = ix3 i h d :=
  swap_idx28 h i d

theorem swap_idx32 (h : Fin 8) (i : Fin 1024) (d : Fin 64) : idx_main_v32 (ix3 h i d) = ix3 i h d :=
  swap_idx28 h i d

/-- Moving the head axis back: entry (i, h, d) reads entry (h, i, d). -/
theorem swap_idx48 (i : Fin 1024) (h : Fin 8) (d : Fin 64) : idx_main_v48 (ix3 i h d) = ix3 h i d :=
  funext fun a => by match a with | ⟨0, _⟩ => rfl | ⟨1, _⟩ => rfl | ⟨2, _⟩ => rfl

/-- (i, c) in [1024, 512] and (i, c / 64, c % 64) in [1024, 8, 64] have the same row-major position. -/
theorem merge_idx49 (i : Fin 1024) (c : Fin 512) : idx_main_v49 (ix2 i c) = ix3 i (headOf c) (posOf c) :=
  funext fun a => Fin.ext (by
    have hi := i.isLt; have hc := c.isLt
    match a with
    | ⟨0, _⟩ => show (i.val * 512 + c.val) / 512 = i.val; omega
    | ⟨1, _⟩ => show (i.val * 512 + c.val) / 64 % 8 = c.val / 64; omega
    | ⟨2, _⟩ => show (i.val * 512 + c.val) % 64 = c.val % 64; omega)

/-- The scores' product at (h, i, j) reads the left operand at (h, i, d) … -/
theorem lidx33 (h : Fin 8) (i j : Fin 1024) (d : Fin 64) : lidx_main_v33 (ix3 h i j) d = ix3 h i d :=
  funext fun a => by match a with | ⟨0, _⟩ => rfl | ⟨1, _⟩ => rfl | ⟨2, _⟩ => rfl

/-- … and the right operand at (h, j, d). -/
theorem ridx33 (h : Fin 8) (i j : Fin 1024) (d : Fin 64) : ridx_main_v33 (ix3 h i j) d = ix3 h j d :=
  funext fun a => by match a with | ⟨0, _⟩ => rfl | ⟨1, _⟩ => rfl | ⟨2, _⟩ => rfl

/-- A row statistic broadcast back over the row: entry (h, i, j) reads entry (h, i). -/
theorem idx39_40 (h : Fin 8) (i j : Fin 1024) : idx_main_v39 (idx_main_v40 (ix3 h i j)) = ix2 h i :=
  funext fun a => by match a with | ⟨0, _⟩ => rfl | ⟨1, _⟩ => rfl

theorem idx44_45 (h : Fin 8) (i j : Fin 1024) : idx_main_v44 (idx_main_v45 (ix3 h i j)) = ix2 h i :=
  funext fun a => by match a with | ⟨0, _⟩ => rfl | ⟨1, _⟩ => rfl

/-- The row sum at (h, i) runs over the entries (h, i, j). -/
theorem idx43 (h : Fin 8) (i j : Fin 1024) : idx_main_v43 (ix2 h i) j = ix3 h i j :=
  funext fun a => by match a with | ⟨0, _⟩ => rfl | ⟨1, _⟩ => rfl | ⟨2, _⟩ => rfl

/-- The weighted sum at (h, i, d) reads the weights at (h, i, j) … -/
theorem lidx47 (h : Fin 8) (i : Fin 1024) (d : Fin 64) (j : Fin 1024) : lidx_main_v47 (ix3 h i d) j = ix3 h i j :=
  funext fun a => by match a with | ⟨0, _⟩ => rfl | ⟨1, _⟩ => rfl | ⟨2, _⟩ => rfl

/-- … and the values at (h, j, d). -/
theorem ridx47 (h : Fin 8) (i : Fin 1024) (d : Fin 64) (j : Fin 1024) : ridx_main_v47 (ix3 h i d) j = ix3 h j d :=
  funext fun a => by match a with | ⟨0, _⟩ => rfl | ⟨1, _⟩ => rfl | ⟨2, _⟩ => rfl

/-! ## The row maximum as a fold over the row -/

theorem red_wit : S8x1024x1024.Reduces [2] S8x1024 := by decide

/-- The index (h, i) with the coordinate j put back on the last axis is (h, i, j). -/
theorem lift_ix (h : Fin 8) (i j : Fin 1024) : red_wit.lift (ix2 h i) j = ix3 h i j :=
  funext fun a => Fin.ext (by match a with | ⟨0, _⟩ => rfl | ⟨1, _⟩ => rfl | ⟨2, _⟩ => rfl)

/-- A maximum-reduction over the last axis, at (h, i), is the fold of max from the initial value over the row. -/
theorem rowmax_read (x : S8x1024x1024.Idx → Ideal .f32) (init : S_.Idx → Ideal .f32) (h : Fin 8) (i : Fin 1024) :
    Host.reduce (FloatOps.maximumf (F := Ideal) (φ := .f32)) x init reducesTo_S8x1024x1024_S8x1024_d2 h_S_ (ix2 h i)
      = (Finset.univ : Finset (Fin 1024)).fold max (init (Shape.Idx.first h_S_)) (fun j => x (ix3 h i j)) := by
  rw [Host.reduce_eq_fold_single FloatOps.maximumf x init reducesTo_S8x1024x1024_S8x1024_d2 red_wit h_S_ (ix2 h i)]
  have e : (x ∘ red_wit.lift (ix2 h i)) = fun j : Fin 1024 => x (ix3 h i j) := funext fun j => congrArg x (lift_ix h i j)
  exact congrArg (fun f => Finset.fold max (init (Shape.Idx.first h_S_)) f (Finset.univ : Finset (Fin 1024))) e

/-! ## The stages -/

section Stages
variable (x0 : (⟨S1024x512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512x512, .f32⟩ : BufTy).Contents (Elt Ideal)) (x10 : (⟨S512, .f32⟩ : BufTy).Contents (Elt Ideal))

/-- Head h of the first projection: entry (h, i, d) is the projection's entry (i, 64 h + d). -/
theorem q_head (h : Fin 8) (i : Fin 1024) (d : Fin 64) :
    val_main_v28 (F := Ideal) x0 x5 x6 (ix3 h i d) = val_main_v16 (F := Ideal) x0 x5 x6 (ix2 i (hcol h d)) := by
  rewrite [val_main_v28_apply, val_main_v27_apply, swap_idx28, split_idx27]
  exact rfl

/-- Head h of the second projection. -/
theorem k_head (h : Fin 8) (i : Fin 1024) (d : Fin 64) :
    val_main_v30 (F := Ideal) x0 x7 x8 (ix3 h i d) = val_main_v21 (F := Ideal) x0 x7 x8 (ix2 i (hcol h d)) := by
  rewrite [val_main_v30_apply, val_main_v29_apply, swap_idx30, split_idx29]
  exact rfl

/-- Head h of the third projection. -/
theorem v_head (h : Fin 8) (i : Fin 1024) (d : Fin 64) :
    val_main_v32 (F := Ideal) x0 x9 x10 (ix3 h i d) = val_main_v26 (F := Ideal) x0 x9 x10 (ix2 i (hcol h d)) := by
  rewrite [val_main_v32_apply, val_main_v31_apply, swap_idx32, split_idx31]
  exact rfl

/-- The scores: (∑ d, q (i, 64 h + d) · k (j, 64 h + d)) / 8. -/
theorem sc_ref (h : Fin 8) (i j : Fin 1024) :
    val_main_v35 (F := Ideal) x0 x5 x6 x7 x8 (ix3 h i j) = scR (val_main_v16 (F := Ideal) x0 x5 x6) (val_main_v21 (F := Ideal) x0 x7 x8) h i j := by
  rewrite [val_main_v35_apply, val_main_v33_apply, val_main_v34_apply, val_main_cst_apply]
  unfold scR cEight
  refine congrArg₂ Ideal.div (Finset.sum_congr rfl fun d _ => ?_) rfl
  rewrite [lidx33, ridx33, q_head, k_head]
  exact rfl

/-- The row maximum of the scores, from −∞, taken once more against −∞. -/
theorem mx_ref (h : Fin 8) (i : Fin 1024) :
    val_main_v38 (F := Ideal) x0 x5 x6 x7 x8 (ix2 h i) = mxR (val_main_v16 (F := Ideal) x0 x5 x6) (val_main_v21 (F := Ideal) x0 x7 x8) h i := by
  rewrite [val_main_v38_apply, val_main_v37_apply, val_main_cst_1_apply]
  unfold val_main_v36
  rewrite [rowmax_read, val_main_cst_0_apply]
  have e : (fun j : Fin 1024 => val_main_v35 (F := Ideal) x0 x5 x6 x7 x8 (ix3 h i j))
      = fun j : Fin 1024 => scR (val_main_v16 (F := Ideal) x0 x5 x6) (val_main_v21 (F := Ideal) x0 x7 x8) h i j :=
    funext fun j => sc_ref x0 x5 x6 x7 x8 h i j
  rewrite [e]
  exact rfl

/-- The unnormalised weights exp (s − m). -/
theorem ex_ref (h : Fin 8) (i j : Fin 1024) :
    val_main_v42 (F := Ideal) x0 x5 x6 x7 x8 (ix3 h i j) = exR (val_main_v16 (F := Ideal) x0 x5 x6) (val_main_v21 (F := Ideal) x0 x7 x8) h i j := by
  rewrite [val_main_v42_apply, val_main_v41_apply, val_main_v40_apply, val_main_v39_apply, idx39_40, sc_ref, mx_ref]
  exact rfl

/-- Their row sum, from +0.0. -/
theorem sm_ref (h : Fin 8) (i : Fin 1024) :
    val_main_v43 (F := Ideal) x0 x5 x6 x7 x8 (ix2 h i) = smR (val_main_v16 (F := Ideal) x0 x5 x6) (val_main_v21 (F := Ideal) x0 x7 x8) h i := by
  rewrite [val_main_v43_apply, val_main_cst_2_apply]
  unfold smR c0
  refine congrArg₂ (· + ·) rfl (Finset.sum_congr rfl fun j _ => ?_)
  rewrite [idx43, ex_ref]
  exact rfl

/-- One head's output: ∑ j, (e (i, j) / sum) · v (j, 64 h + d). -/
theorem head_ref (h : Fin 8) (i : Fin 1024) (d : Fin 64) :
    val_main_v47 (F := Ideal) x0 x5 x6 x7 x8 x9 x10 (ix3 h i d) = headR (val_main_v16 (F := Ideal) x0 x5 x6) (val_main_v21 (F := Ideal) x0 x7 x8) (val_main_v26 (F := Ideal) x0 x9 x10) h i d := by
  rewrite [val_main_v47_apply]
  unfold headR
  refine Finset.sum_congr rfl fun j _ => ?_
  rewrite [lidx47, ridx47, val_main_v46_apply, val_main_v45_apply, val_main_v44_apply, idx44_45, ex_ref, sm_ref, v_head]
  exact rfl

end Stages

/-- The reference's attention stage is the eight heads side by side: column c is head c / 64 at position c % 64. -/
theorem att_ref (x0 : (⟨S1024x512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512x512, .f32⟩ : BufTy).Contents (Elt Ideal)) (x10 : (⟨S512, .f32⟩ : BufTy).Contents (Elt Ideal)) :
    val_main_v49 (F := Ideal) x0 x5 x6 x7 x8 x9 x10
      = Cert.Spec.attR (val_main_v16 (F := Ideal) x0 x5 x6) (val_main_v21 (F := Ideal) x0 x7 x8) (val_main_v26 (F := Ideal) x0 x9 x10) := by
  funext e
  obtain ⟨i, c, rfl⟩ : ∃ (i : Fin 1024) (c : Fin 512), e = ix2 i c := ⟨e 0, e 1, eq_ix2 e⟩
  rewrite [val_main_v49_apply, val_main_v48_apply, merge_idx49, swap_idx48, head_ref, attR_apply]
  exact rfl

end Cert.ReferenceIdeal.RA

end
-- ==== Proof.RefLin.lean ====
/-
  The reference program's stages outside the attention block, read as the layers of the shared specification.

  Every affine layer of the reference is: transpose the weight matrix W ([N, K] to [K, N]); contract the input's
  columns against the transposed matrix's rows; broadcast the bias [N] to [1, N] to [M, N]; add. Entry (i, j) of
  the result is therefore  ∑ q, x (i, q) · W (j, q) + b j, the specification's `lin x W (vec b)`. The three
  `relu`s are the entrywise maximum with a broadcast +0.0. One layer (the third) is applied to the row-wise
  concatenation [patterns | attended] of a [1024, 128] and a [1024, 512] array: its sum over the 640 columns is the
  sum over the first 128 (which read the first piece and the weight's first 128 columns) plus the sum over the
  last 512 (which read the second piece and the weight's last 512 columns), in that order: `lin2`. The last
  operation is an entrywise tanh.
-/
import proofs.«111305_g82875688944205_cont_9to1c4b_701_3_alg».proof.Proof.RefRead
import proofs.«111305_g82875688944205_cont_9to1c4b_701_3_alg».proof.Proof.Spec
import Idealize.ShloMosaic.Lib.ValueIdx
import Idealize.ShloMosaic.Lib.Pipeline.Value
import Idealize.ShloMosaic.PureOps.Ideal.Laws
import Mathlib.Algebra.BigOperators.Fin

noncomputable section

open scoped BigOperators

namespace Cert.ReferenceIdeal.RL

open Cert.ReferenceIdeal Cert.ReferenceIdeal.Gen Cert.ReferenceIdeal.ReadCopy Idealize.ShloMosaic Idealize.ShloMosaic.ValueIdx Cert.Spec

/-! ## The layers, from their entries -/

/-- An array whose entry (i, j) is  ∑ q, x (i, q) · W (j, q) + b j  is the affine layer. -/
theorem lin_ext {M K N : ℕ} (x : A2 M K) (W : A2 N K) (b : A1 N) (out : A2 M N)
    (h : ∀ (i : Fin M) (j : Fin N), out (ix2 i j) = (∑ q : Fin K, x (ix2 i q) * W (ix2 j q)) + b (ix1 j)) :
    out = lin x W (vec b) := by
  funext e
  obtain ⟨i, j, rfl⟩ : ∃ (i : Fin M) (j : Fin N), e = ix2 i j := ⟨e 0, e 1, eq_ix2 e⟩
  exact h i j

/-- The affine layer over 640 columns, read on an array `cat` whose first 128 columns are p's and whose last 512
    are a's: the sum over the 640 columns is the sum over the first 128 plus the sum over the last 512, in that
    order; column c < 128 meets the weight's column c, column 128 + c its column 128 + c. -/
theorem lin2_ext {M N : ℕ} (p : A2 M 128) (a : A2 M 512) (W : A2 N 640) (b : A1 N) (cat : A2 M 640) (out : A2 M N)
    (hl : ∀ (i : Fin M) (c : Fin 128), cat (ix2 i (Fin.castAdd 512 c)) = p (ix2 i c))
    (hr : ∀ (i : Fin M) (c : Fin 512), cat (ix2 i (Fin.natAdd 128 c)) = a (ix2 i c))
    (h : ∀ (i : Fin M) (j : Fin N), out (ix2 i j) = (∑ k : Fin 640, cat (ix2 i k) * W (ix2 j k)) + b (ix1 j)) :
    out = lin2 p a (left W) (right W) (vec b) := by
  funext e
  obtain ⟨i, j, rfl⟩ : ∃ (i : Fin M) (j : Fin N), e = ix2 i j := ⟨e 0, e 1, eq_ix2 e⟩
  rw [h i j, lin2_apply]
  have hs := Fin.sum_univ_add (a := 128) (b := 512) (fun k : Fin (128 + 512) => cat (ix2 i k) * W (ix2 j k))
  refine congrArg (· + b (ix1 j)) (hs.trans ?_)
  simp only [hl, hr]
  rfl

/-- Column c < 128 of the row-wise concatenation [p | a] is column c of p. -/
theorem cat_left (p : (⟨S1024x128, .f32⟩ : BufTy).Contents (Elt Ideal)) (a : (⟨S1024x512, .f32⟩ : BufTy).Contents (Elt Ideal))
    (i : Fin 1024) (c : Fin 128) :
    concatenate S1024x640 1 [⟨S1024x128, p⟩, ⟨S1024x512, a⟩] concatenates_S1024x128_S1024x512_S1024x640_d1
        (ix2 i (Fin.castAdd 512 c)) = p (ix2 i c) :=
  concatenate_pair_apply_left (t := S1024x640) (s₁ := S1024x128) (s₂ := S1024x512) 1 p a
    concatenates_S1024x128_S1024x512_S1024x640_d1 (ix2 i (Fin.castAdd 512 c)) rfl (ix2 i c) (fun b => match b with
    | ⟨0, _⟩ => rfl
    | ⟨1, _⟩ => rfl)

/-- Column 128 + c of the row-wise concatenation [p | a] is column c of a. -/
theorem cat_right (p : (⟨S1024x128, .f32⟩ : BufTy).Contents (Elt Ideal)) (a : (⟨S1024x512, .f32⟩ : BufTy).Contents (Elt Ideal))
    (i : Fin 1024) (c : Fin 512) :
    concatenate S1024x640 1 [⟨S1024x128, p⟩, ⟨S1024x512, a⟩] concatenates_S1024x128_S1024x512_S1024x640_d1
        (ix2 i (Fin.natAdd 128 c)) = a (ix2 i c) :=
  concatenate_pair_apply_right (t := S1024x640) (s₁ := S1024x128) (s₂ := S1024x512) 1 p a
    concatenates_S1024x128_S1024x512_S1024x640_d1 (ix2 i (Fin.natAdd 128 c)) rfl rfl (ix2 i c) (fun b => match b with
    | ⟨0, _⟩ => fun _ => rfl
    | ⟨1, _⟩ => fun h => absurd rfl h) (Nat.add_comm c.val 128)

variable (x0 : (⟨S1024x512, .f32⟩ : BufTy).Contents (Elt Ideal)) (x1 : (⟨S256x512, .f32⟩ : BufTy).Contents (Elt Ideal)) (x2 : (⟨S256, .f32⟩ : BufTy).Contents (Elt Ideal))
  (x3 : (⟨S128x256, .f32⟩ : BufTy).Contents (Elt Ideal)) (x4 : (⟨S128, .f32⟩ : BufTy).Contents (Elt Ideal))
  (x5 : (⟨S512x512, .f32⟩ : BufTy).Contents (Elt Ideal)) (x6 : (⟨S512, .f32⟩ : BufTy).Contents (Elt Ideal))
  (x7 : (⟨S512x512, .f32⟩ : BufTy).Contents (Elt Ideal)) (x8 : (⟨S512, .f32⟩ : BufTy).Contents (Elt Ideal))
  (x9 : (⟨S512x512, .f32⟩ : BufTy).Contents (Elt Ideal)) (x10 : (⟨S512, .f32⟩ : BufTy).Contents (Elt Ideal))
  (x11 : (⟨S512x512, .f32⟩ : BufTy).Contents (Elt Ideal)) (x12 : (⟨S512, .f32⟩ : BufTy).Contents (Elt Ideal))
  (x13 : (⟨S256x640, .f32⟩ : BufTy).Contents (Elt Ideal)) (x14 : (⟨S256, .f32⟩ : BufTy).Contents (Elt Ideal))
  (x15 : (⟨S512x256, .f32⟩ : BufTy).Contents (Elt Ideal)) (x16 : (⟨S512, .f32⟩ : BufTy).Contents (Elt Ideal))

/-! ## The first branch: two affine layers, each followed by a relu -/

/-- Operations %0 to %4: the first affine layer, on the input. -/
theorem l4 : val_main_v4 (F := Ideal) x0 x1 x2 = lin x0 x1 (vec x2) :=
  lin_ext (M := 1024) (K := 512) (N := 256) x0 x1 x2 _ fun i j => by
    have hl : ∀ k : Fin 512, lidx_main_v1 (ix2 i j) k = ix2 i k := fun k => funext fun a => Fin.ext (by
      match a with
      | ⟨0, _⟩ => rfl
      | ⟨1, _⟩ => rfl)
    have hr : ∀ k : Fin 512, idx_main_v0 (ridx_main_v1 (ix2 i j) k) = ix2 j k := fun k => funext fun a => Fin.ext (by
      match a with
      | ⟨0, _⟩ => rfl
      | ⟨1, _⟩ => rfl)
    have hb : idx_main_v2 (idx_main_v3 (ix2 i j)) = ix1 j := funext fun a => Fin.ext (by
      match a with
      | ⟨0, _⟩ => rfl)
    rw [val_main_v4_apply, val_main_v1_apply, val_main_v3_apply, val_main_v2_apply, hb]
    simp only [val_main_v0_apply, hl, hr]
    rfl

/-- Operation %5: the maximum with the broadcast +0.0. -/
theorem r5 : val_main_v5 (F := Ideal) x0 x1 x2 = relu (val_main_v4 (F := Ideal) x0 x1 x2) := by
  funext e
  rw [val_main_v5_apply, val_main_call0_v0_apply, val_main_call0_cst_apply]
  rfl

/-- Operations %6 to %10: the second affine layer, on the first relu. -/
theorem l10 : val_main_v10 (F := Ideal) x0 x1 x2 x3 x4 = lin (val_main_v5 (F := Ideal) x0 x1 x2) x3 (vec x4) :=
  lin_ext (M := 1024) (K := 256) (N := 128) (val_main_v5 (F := Ideal) x0 x1 x2) x3 x4 _ fun i j => by
    have hl : ∀ k : Fin 256, lidx_main_v7 (ix2 i j) k = ix2 i k := fun k => funext fun a => Fin.ext (by
      match a with
      | ⟨0, _⟩ => rfl
      | ⟨1, _⟩ => rfl)
    have hr : ∀ k : Fin 256, idx_main_v6 (ridx_main_v7 (ix2 i j) k) = ix2 j k := fun k => funext fun a => Fin.ext (by
      match a with
      | ⟨0, _⟩ => rfl
      | ⟨1, _⟩ => rfl)
    have hb : idx_main_v8 (idx_main_v9 (ix2 i j)) = ix1 j := funext fun a => Fin.ext (by
      match a with
      | ⟨0, _⟩ => rfl)
    rw [val_main_v10_apply, val_main_v7_apply, val_main_v9_apply, val_main_v8_apply, hb]
    simp only [val_main_v6_apply, hl, hr]
    rfl

/-- Operation %11: the maximum with the broadcast +0.0. -/
theorem r11 : val_main_v11 (F := Ideal) x0 x1 x2 x3 x4 = relu (val_main_v10 (F := Ideal) x0 x1 x2 x3 x4) := by
  funext e
  rw [val_main_v11_apply, val_main_call1_v0_apply, val_main_call1_cst_apply]
  rfl

/-- The first branch's output (the patterns): relu of the second layer of relu of the first layer. -/
theorem pat_ref : val_main_v11 (F := Ideal) x0 x1 x2 x3 x4
    = Cert.Spec.relu (Cert.Spec.lin (Cert.Spec.relu (Cert.Spec.lin x0 x1 (Cert.Spec.vec x2))) x3 (Cert.Spec.vec x4)) := by
  rw [r11, l10, r5, l4]

/-! ## The three projections of the attention block -/

/-- Operations %12 to %16: the query projection. -/
theorem q_ref : val_main_v16 (F := Ideal) x0 x5 x6 = Cert.Spec.lin x0 x5 (Cert.Spec.vec x6) :=
  lin_ext (M := 1024) (K := 512) (N := 512) x0 x5 x6 _ fun i j => by
    have hl : ∀ k : Fin 512, lidx_main_v13 (ix2 i j) k = ix2 i k := fun k => funext fun a => Fin.ext (by
      match a with
      | ⟨0, _⟩ => rfl
      | ⟨1, _⟩ => rfl)
    have hr : ∀ k : Fin 512, idx_main_v12 (ridx_main_v13 (ix2 i j) k) = ix2 j k := fun k => funext fun a => Fin.ext (by
      match a with
      | ⟨0, _⟩ => rfl
      | ⟨1, _⟩ => rfl)
    have hb : idx_main_v14 (idx_main_v15 (ix2 i j)) = ix1 j := funext fun a => Fin.ext (by
      match a with
      | ⟨0, _⟩ => rfl)
    rw [val_main_v16_apply, val_main_v13_apply, val_main_v15_apply, val_main_v14_apply, hb]
    simp only [val_main_v12_apply, hl, hr]
    rfl

/-- Operations %17 to %21: the key projection. -/
theorem k_ref : val_main_v21 (F := Ideal) x0 x7 x8 = Cert.Spec.lin x0 x7 (Cert.Spec.vec x8) :=
  lin_ext (M := 1024) (K := 512) (N := 512) x0 x7 x8 _ fun i j => by
    have hl : ∀ k : Fin 512, lidx_main_v18 (ix2 i j) k = ix2 i k := fun k => funext fun a => Fin.ext (by
      match a with
      | ⟨0, _⟩ => rfl
      | ⟨1, _⟩ => rfl)
    have hr : ∀ k : Fin 512, idx_main_v17 (ridx_main_v18 (ix2 i j) k) = ix2 j k := fun k => funext fun a => Fin.ext (by
      match a with
      | ⟨0, _⟩ => rfl
      | ⟨1, _⟩ => rfl)
    have hb : idx_main_v19 (idx_main_v20 (ix2 i j)) = ix1 j := funext fun a => Fin.ext (by
      match a with
      | ⟨0, _⟩ => rfl)
    rw [val_main_v21_apply, val_main_v18_apply, val_main_v20_apply, val_main_v19_apply, hb]
    simp only [val_main_v17_apply, hl, hr]
    rfl

/-- Operations %22 to %26: the value projection. -/
theorem v_ref : val_main_v26 (F := Ideal) x0 x9 x10 = Cert.Spec.lin x0 x9 (Cert.Spec.vec x10) :=
  lin_ext (M := 1024) (K := 512) (N := 512) x0 x9 x10 _ fun i j => by
    have hl : ∀ k : Fin 512, lidx_main_v23 (ix2 i j) k = ix2 i k := fun k => funext fun a => Fin.ext (by
      match a with
      | ⟨0, _⟩ => rfl
      | ⟨1, _⟩ => rfl)
    have hr : ∀ k : Fin 512, idx_main_v22 (ridx_main_v23 (ix2 i j) k) = ix2 j k := fun k => funext fun a => Fin.ext (by
      match a with
      | ⟨0, _⟩ => rfl
      | ⟨1, _⟩ => rfl)
    have hb : idx_main_v24 (idx_main_v25 (ix2 i j)) = ix1 j := funext fun a => Fin.ext (by
      match a with
      | ⟨0, _⟩ => rfl)
    rw [val_main_v26_apply, val_main_v23_apply, val_main_v25_apply, val_main_v24_apply, hb]
    simp only [val_main_v22_apply, hl, hr]
    rfl

/-! ## After the attention block -/

/-- Operations %50 to %54: the output projection, on the attended array. -/
theorem l54 : val_main_v54 (F := Ideal) x0 x5 x6 x7 x8 x9 x10 x11 x12
    = lin (val_main_v49 (F := Ideal) x0 x5 x6 x7 x8 x9 x10) x11 (vec x12) :=
  lin_ext (M := 1024) (K := 512) (N := 512) (val_main_v49 (F := Ideal) x0 x5 x6 x7 x8 x9 x10) x11 x12 _ fun i j => by
    have hl : ∀ k : Fin 512, lidx_main_v51 (ix2 i j) k = ix2 i k := fun k => funext fun a => Fin.ext (by
      match a with
      | ⟨0, _⟩ => rfl
      | ⟨1, _⟩ => rfl)
    have hr : ∀ k : Fin 512, idx_main_v50 (ridx_main_v51 (ix2 i j) k) = ix2 j k := fun k => funext fun a => Fin.ext (by
      match a with
      | ⟨0, _⟩ => rfl
      | ⟨1, _⟩ => rfl)
    have hb : idx_main_v52 (idx_main_v53 (ix2 i j)) = ix1 j := funext fun a => Fin.ext (by
      match a with
      | ⟨0, _⟩ => rfl)
    rw [val_main_v54_apply, val_main_v51_apply, val_main_v53_apply, val_main_v52_apply, hb]
    simp only [val_main_v50_apply, hl, hr]
    rfl

/-- Operations %55 to %60: the third affine layer, on the row-wise concatenation of the patterns and the projected
    attended array; its weight matrix enters as its first 128 and its last 512 columns. -/
theorem l60 : val_main_v60 (F := Ideal) x0 x1 x2 x3 x4 x5 x6 x7 x8 x9 x10 x11 x12 x13 x14
    = lin2 (val_main_v11 (F := Ideal) x0 x1 x2 x3 x4) (val_main_v54 (F := Ideal) x0 x5 x6 x7 x8 x9 x10 x11 x12)
        (left x13) (right x13) (vec x14) :=
  lin2_ext (M := 1024) (N := 256) (val_main_v11 (F := Ideal) x0 x1 x2 x3 x4)
    (val_main_v54 (F := Ideal) x0 x5 x6 x7 x8 x9 x10 x11 x12) x13 x14
    (val_main_v55 (F := Ideal) x0 x1 x2 x3 x4 x5 x6 x7 x8 x9 x10 x11 x12) _
    (fun i c => cat_left _ _ i c)
    (fun i c => cat_right _ _ i c)
    (fun i j => by
      have hl : ∀ k : Fin 640, lidx_main_v57 (ix2 i j) k = ix2 i k := fun k => funext fun a => Fin.ext (by
        match a with
        | ⟨0, _⟩ => rfl
        | ⟨1, _⟩ => rfl)
      have hr : ∀ k : Fin 640, idx_main_v56 (ridx_main_v57 (ix2 i j) k) = ix2 j k := fun k => funext fun a => Fin.ext (by
        match a with
        | ⟨0, _⟩ => rfl
        | ⟨1, _⟩ => rfl)
      have hb : idx_main_v58 (idx_main_v59 (ix2 i j)) = ix1 j := funext fun a => Fin.ext (by
        match a with
        | ⟨0, _⟩ => rfl)
      rw [val_main_v60_apply, val_main_v57_apply, val_main_v59_apply, val_main_v58_apply, hb]
      simp only [val_main_v56_apply, hl, hr]
      rfl)

/-- Operation %61: the maximum with the broadcast +0.0. -/
theorem r61 : val_main_v61 (F := Ideal) x0 x1 x2 x3 x4 x5 x6 x7 x8 x9 x10 x11 x12 x13 x14
    = relu (val_main_v60 (F := Ideal) x0 x1 x2 x3 x4 x5 x6 x7 x8 x9 x10 x11 x12 x13 x14) := by
  funext e
  rw [val_main_v61_apply, val_main_call2_v0_apply, val_main_call2_cst_apply]
  rfl

/-- Operations %62 to %66: the last affine layer. -/
theorem l66 : val_main_v66 (F := Ideal) x0 x1 x2 x3 x4 x5 x6 x7 x8 x9 x10 x11 x12 x13 x14 x15 x16
    = lin (val_main_v61 (F := Ideal) x0 x1 x2 x3 x4 x5 x6 x7 x8 x9 x10 x11 x12 x13 x14) x15 (vec x16) :=
  lin_ext (M := 1024) (K := 256) (N := 512) (val_main_v61 (F := Ideal) x0 x1 x2 x3 x4 x5 x6 x7 x8 x9 x10 x11 x12 x13 x14)
    x15 x16 _ fun i j => by
    have hl : ∀ k : Fin 256, lidx_main_v63 (ix2 i j) k = ix2 i k := fun k => funext fun a => Fin.ext (by
      match a with
      | ⟨0, _⟩ => rfl
      | ⟨1, _⟩ => rfl)
    have hr : ∀ k : Fin 256, idx_main_v62 (ridx_main_v63 (ix2 i j) k) = ix2 j k := fun k => funext fun a => Fin.ext (by
      match a with
      | ⟨0, _⟩ => rfl
      | ⟨1, _⟩ => rfl)
    have hb : idx_main_v64 (idx_main_v65 (ix2 i j)) = ix1 j := funext fun a => Fin.ext (by
      match a with
      | ⟨0, _⟩ => rfl)
    rw [val_main_v66_apply, val_main_v63_apply, val_main_v65_apply, val_main_v64_apply, hb]
    simp only [val_main_v62_apply, hl, hr]
    rfl

/-! ## The whole reference -/

/-- The reference's result is the network of the specification with the second arrangement of the attention stage,
    given that its attention block (operations %27 to %49) computes that arrangement from the three projections. -/
theorem ref_value
    (hatt : val_main_v49 (F := Ideal) x0 x5 x6 x7 x8 x9 x10
      = Cert.Spec.attR (val_main_v16 (F := Ideal) x0 x5 x6) (val_main_v21 (F := Ideal) x0 x7 x8) (val_main_v26 (F := Ideal) x0 x9 x10)) :
    val_main_v67 (F := Ideal) x0 x1 x2 x3 x4 x5 x6 x7 x8 x9 x10 x11 x12 x13 x14 x15 x16
      = Cert.Spec.body Cert.Spec.attR x0 x1 (Cert.Spec.vec x2) x3 (Cert.Spec.vec x4) x5 (Cert.Spec.vec x6) x7 (Cert.Spec.vec x8)
          x9 (Cert.Spec.vec x10) x11 (Cert.Spec.vec x12) (Cert.Spec.left x13) (Cert.Spec.right x13) (Cert.Spec.vec x14)
          x15 (Cert.Spec.vec x16) := by
  funext e
  rw [val_main_v67_apply, l66, r61, l60, pat_ref, l54, hatt, q_ref, k_ref, v_ref]
  rfl

end Cert.ReferenceIdeal.RL

end
-- ==== Proof.Algebra.lean ====
/-
  The two arrangements of the attention stage agree on real-valued projections.
-/
import proofs.«111305_g82875688944205_cont_9to1c4b_701_3_alg».proof.Proof.Spec

noncomputable section

open scoped BigOperators

namespace Cert.Alg

open Idealize.ShloMosaic Idealize.ShloMosaic.ValueIdx Cert.Spec

/-! ## The float literals as extended reals -/

private theorem c0_eq : c0 = 0 := by
  unfold c0; exact Ideal.ofBits_zero_f32

private theorem c1_eq : c1 = ((1 : ℝ) : EReal) := by
  unfold c1; simp [Ideal.ofBits, Ideal.ieee, -EReal.coe_mul]; norm_num

private theorem cEighth_eq : cEighth = ((1 / 8 : ℝ) : EReal) := by
  unfold cEighth; simp [Ideal.ofBits, Ideal.ieee, -EReal.coe_mul]; norm_num

private theorem cEight_eq : cEight = ((8 : ℝ) : EReal) := by
  unfold cEight; simp [Ideal.ofBits, Ideal.ieee, -EReal.coe_mul]; norm_num

private theorem cNegInf_eq : cNegInf = ⊥ := by
  unfold cNegInf; simp [Ideal.ofBits, Ideal.ieee]

/-! ## Coercion of finite sums and maxima -/

/-- A finite sum of coerced reals is the coercion of the real sum. -/
private theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The maximum from −∞ of finitely many reals, over a nonempty index set, is a real number. -/
private theorem fold_max_real {ι : Type*} (t : Finset ι) (ht : t.Nonempty) (f : ι → ℝ) :
    ∃ m : ℝ, t.fold max (⊥ : EReal) (fun j => (f j : EReal)) = (m : EReal) := by
  obtain ⟨a, ha⟩ := ht
  have hbot : (⊥ : EReal) < t.fold max ⊥ (fun j => (f j : EReal)) :=
    (Finset.lt_fold_max _).mpr (Or.inr ⟨a, ha, EReal.bot_lt_coe _⟩)
  have htop : t.fold max (⊥ : EReal) (fun j => (f j : EReal)) < ⊤ :=
    (Finset.fold_max_lt _).mpr ⟨bot_lt_top, fun x _ => EReal.coe_lt_top _⟩
  exact ⟨_, (EReal.coe_toReal htop.ne hbot.ne').symm⟩

/-! ## Real-valued arrays -/

/-- A real-valued array read as an array of extended reals. -/
private def up {S : Shape} (a : S.Idx → ℝ) : S.Idx → EReal := fun e => (a e : EReal)

private theorem up_apply {S : Shape} (a : S.Idx → ℝ) (e : S.Idx) : up a e = (a e : EReal) := rfl

private theorem exists_up {S : Shape} {a : S.Idx → EReal} (h : RealA a) : ∃ a' : S.Idx → ℝ, a = up a' := by
  choose a' ha' using h
  exact ⟨a', funext ha'⟩

theorem lin_real {M K N : ℕ} {x : A2 M K} {W : A2 N K} {β : Fin N → EReal}
    (hx : RealA x) (hW : RealA W) (hβ : RealF β) : RealA (lin x W β) := by
  choose x' hx' using hx
  choose W' hW' using hW
  choose β' hβ' using hβ
  intro e
  refine ⟨(∑ q : Fin K, x' (ix2 (e 0) q) * W' (ix2 (e 1) q)) + β' (e 1), ?_⟩
  show (∑ q : Fin K, x (ix2 (e 0) q) * W (ix2 (e 1) q)) + β (e 1) = _
  rw [hβ' (e 1)]
  simp only [hx', hW', ← EReal.coe_mul, coe_sum, ← EReal.coe_add]

/-! ## One head, over the reals -/

section Head
variable (q k v : (⟨2, ![1024, 512]⟩ : Shape).Idx → ℝ) (h : Fin 8) (i : Fin 1024)

/-- The real score: the inner product of the two head slices, over 8. -/
private def sc (j : Fin 1024) : ℝ := (∑ d : Fin 64, q (ix2 i (hcol h d)) * k (ix2 j (hcol h d))) / 8

/-- Scaling the query by ⅛ before the product gives the real score. -/
private theorem scK_coe (j : Fin 1024) : scK (up q) (up k) h i j = (sc q k h i j : EReal) := by
  unfold scK sc
  rw [cEighth_eq]
  simp only [up_apply, ← EReal.coe_mul, coe_sum]
  rw [EReal.coe_eq_coe_iff, Finset.sum_div]
  refine Finset.sum_congr rfl fun d _ => ?_
  ring

/-- Dividing the product by 8 gives the real score. -/
private theorem scR_coe (j : Fin 1024) : scR (up q) (up k) h i j = (sc q k h i j : EReal) := by
  unfold scR sc
  rw [cEight_eq, Ideal.div_coe (by norm_num : (8 : ℝ) ≠ 0)]
  simp only [up_apply, ← EReal.coe_mul, coe_sum]
  rw [EReal.coe_eq_coe_iff]
  ring

/-- Both row maxima are one and the same real number. -/
private theorem mx_coe : ∃ m : ℝ, mxK (up q) (up k) h i = (m : EReal) ∧ mxR (up q) (up k) h i = (m : EReal) := by
  obtain ⟨m, hm⟩ := fold_max_real (Finset.univ : Finset (Fin 1024)) ⟨0, Finset.mem_univ _⟩ (fun j => sc q k h i j)
  refine ⟨m, ?_, ?_⟩
  · unfold mxK
    simp only [scK_coe, cNegInf_eq]
    exact hm
  · unfold mxR
    simp only [scR_coe, cNegInf_eq]
    rw [hm]
    exact max_eq_right bot_le

end Head

/-- The softmax-weighted average over the reals: normalising after the sum or each weight before it is the same. -/
private theorem avg_eq {ι : Type*} [Fintype ι] (e v : ι → ℝ) (hS : 0 < ∑ j, e j) :
    (∑ j, (e j : EReal) * (v j : EReal)) * Ideal.div ((1 : ℝ) : EReal) (∑ j, (e j : EReal))
      = ∑ j, Ideal.div (e j : EReal) (0 + ∑ j, (e j : EReal)) * (v j : EReal) := by
  have hS' : (∑ j, e j) ≠ 0 := ne_of_gt hS
  rw [zero_add, coe_sum]
  simp only [Ideal.div_coe hS', ← EReal.coe_mul, coe_sum]
  rw [EReal.coe_eq_coe_iff, Finset.sum_mul]
  refine Finset.sum_congr rfl fun j _ => ?_
  ring

theorem head_eq (q k v : A2 1024 512) (hq : RealA q) (hk : RealA k) (hv : RealA v)
    (h : Fin 8) (i : Fin 1024) (d : Fin 64) : headK q k v h i d = headR q k v h i d := by
  obtain ⟨q', rfl⟩ := exists_up hq
  obtain ⟨k', rfl⟩ := exists_up hk
  obtain ⟨v', rfl⟩ := exists_up hv
  obtain ⟨m, hmK, hmR⟩ := mx_coe q' k' h i
  have hK : ∀ j, exK (up q') (up k') h i j = ((Real.exp (sc q' k' h i j - m) : ℝ) : EReal) := by
    intro j
    unfold exK
    rw [scK_coe, hmK, ← EReal.coe_sub, Ideal.exp_coe]
  have hR : ∀ j, exR (up q') (up k') h i j = ((Real.exp (sc q' k' h i j - m) : ℝ) : EReal) := by
    intro j
    unfold exR
    rw [scR_coe, hmR, ← EReal.coe_sub, Ideal.exp_coe]
  unfold headK headR smR
  simp only [hK, hR, c1_eq, c0_eq, up_apply]
  exact avg_eq (fun j => Real.exp (sc q' k' h i j - m)) (fun j => v' (ix2 j (hcol h d)))
    (Finset.sum_pos (fun j _ => Real.exp_pos _) ⟨0, Finset.mem_univ _⟩)

theorem att_eq (q k v : A2 1024 512) (hq : RealA q) (hk : RealA k) (hv : RealA v) : attK q k v = attR q k v :=
  funext fun e => head_eq q k v hq hk hv _ _ _

theorem body_eq (x : A2 1024 512) (W1 : A2 256 512) (β1 : Fin 256 → EReal) (W2 : A2 128 256) (β2 : Fin 128 → EReal)
    (Wq : A2 512 512) (βq : Fin 512 → EReal) (Wk : A2 512 512) (βk : Fin 512 → EReal)
    (Wv : A2 512 512) (βv : Fin 512 → EReal) (Wo : A2 512 512) (βo : Fin 512 → EReal)
    (W3p : A2 256 128) (W3a : A2 256 512) (β3 : Fin 256 → EReal) (W4 : A2 512 256) (β4 : Fin 512 → EReal)
    (hx : RealA x) (hWq : RealA Wq) (hβq : RealF βq) (hWk : RealA Wk) (hβk : RealF βk) (hWv : RealA Wv) (hβv : RealF βv) :
    body attK x W1 β1 W2 β2 Wq βq Wk βk Wv βv Wo βo W3p W3a β3 W4 β4
      = body attR x W1 β1 W2 β2 Wq βq Wk βk Wv βv Wo βo W3p W3a β3 W4 β4 := by
  unfold body
  rw [att_eq _ _ _ (lin_real hx hWq hβq) (lin_real hx hWk hβk) (lin_real hx hWv hβv)]

end Cert.Alg

end
-- ==== Proof.Finite.lean ====
/-
  The precondition says that every input entry is finite; here: every entry of the inputs the attention stage reads is a real number.
-/
import proofs.«111305_g82875688944205_cont_9to1c4b_701_3_alg».proof.Pre_finite_inputs
import proofs.«111305_g82875688944205_cont_9to1c4b_701_3_alg».proof.Proof.Gen.Pre_finite_inputs
import proofs.«111305_g82875688944205_cont_9to1c4b_701_3_alg».proof.Proof.Spec
import Idealize.ShloMosaic.Lib.ReduceAll

noncomputable section

namespace Cert.Fin

open Idealize.ShloMosaic Idealize.ShloMosaic.ValueIdx Cert.Spec Cert.Pre_finite_inputs

/-- A rank-0 array has exactly one index. -/
private instance subsingleton_idx0 : Subsingleton S_.Idx := ⟨fun a b => funext fun d => d.elim0⟩

/-- The pattern 0x7F800000 is +∞. -/
private theorem inf_pattern : Ideal.ofBits .f32 0x7F800000#32 = (⊤ : EReal) := by
  simp [Ideal.ofBits, Ideal.ieee]

/-- An extended real whose absolute value max a (−a) lies strictly below +∞ is a real number:
    at −∞ and at +∞ the absolute value is +∞ itself. -/
private theorem real_of_abs_lt_top (a : EReal) (h : max a (-a) < ⊤) : ∃ r : ℝ, a = (r : EReal) := by
  induction a using EReal.rec with
  | bot => simp at h
  | coe r => exact ⟨r, rfl⟩
  | top => simp at h

/-- The comparison bit |a| < +∞ being 1 says a is a real number. -/
private theorem real_of_bit (a : EReal)
    (h : FloatOps.cmpf (F := Ideal) (φ := .f32) .olt (FloatOps.hostAbsf a) (Ideal.ofBits .f32 0x7F800000#32) = 1#1) :
    ∃ r : ℝ, a = (r : EReal) := by
  rw [inf_pattern] at h
  apply real_of_abs_lt_top
  by_contra hn
  have : Ideal.cmp .olt (max a (-a)) ⊤ = 0#1 := by
    simp [Ideal.cmp, hn]
  have h' : Ideal.cmp .olt (max a (-a)) ⊤ = 1#1 := h
  rw [this] at h'
  exact absurd h' (by decide)

/-- One input's finiteness test read back: if the and-reduction over all entries of (|x| < +∞) is 1,
    every entry of x is a real number. -/
private theorem realA_of_all {S : Shape} {axes : List (Fin S.rank)} (x : FVec Ideal S .f32)
    (hb : S_.BroadcastsInDim S (![] : Fin 0 → Fin S.rank)) (hr : S.ReducesTo axes S_) (hu : 0 < S_.numel)
    (h : Host.reduce IntOp.andi
          (cmpf .olt (Host.absf x) (broadcastInDim S ![] hb (constant (F := Ideal) S_ .f32 0x7F800000#32)))
          (constantI S_ 1 1#1) hr hu ix0 = 1#1) :
    RealA x := by
  intro i
  have hi := Host.reduce_andi_all _ _ hr hu ix0 h i
  exact real_of_bit (x i) hi

/-- The and of two rank-0 bits is 1 exactly when both are. -/
private theorem and_split (a b : IVec S_ 1) (h : andi a b ix0 = 1#1) : a ix0 = 1#1 ∧ b ix0 = 1#1 :=
  IntOp.andi_eq_one.1 h

theorem real_of_pre [Cert.Pre_finite_inputs.Facts]
    (x0 : FVec Ideal S1024x512 .f32) (x1 : FVec Ideal S256x512 .f32) (x2 : FVec Ideal S256 .f32) (x3 : FVec Ideal S128x256 .f32)
    (x4 : FVec Ideal S128 .f32) (x5 : FVec Ideal S512x512 .f32) (x6 : FVec Ideal S512 .f32) (x7 : FVec Ideal S512x512 .f32)
    (x8 : FVec Ideal S512 .f32) (x9 : FVec Ideal S512x512 .f32) (x10 : FVec Ideal S512 .f32) (x11 : FVec Ideal S512x512 .f32)
    (x12 : FVec Ideal S512 .f32) (x13 : FVec Ideal S256x640 .f32) (x14 : FVec Ideal S256 .f32) (x15 : FVec Ideal S512x256 .f32)
    (x16 : FVec Ideal S512 .f32)
    (h : Cert.Pre_finite_inputs.fn (F := Ideal) x0 x1 x2 x3 x4 x5 x6 x7 x8 x9 x10 x11 x12 x13 x14 x15 x16 = (fun _ => 1#1)) :
    RealA x0 ∧ RealA x5 ∧ RealF (vec x6) ∧ RealA x7 ∧ RealF (vec x8) ∧ RealA x9 ∧ RealF (vec x10) := by
  have h0 := congrFun h ix0
  dsimp only [fn, fn_part1, fn_part2, fn_part3, fn_part4] at h0
  -- the chain of ands is nested to the left: peel the last conjunct each time
  obtain ⟨h0, _c16⟩ := and_split _ _ h0
  obtain ⟨h0, _c15⟩ := and_split _ _ h0
  obtain ⟨h0, _c14⟩ := and_split _ _ h0
  obtain ⟨h0, _c13⟩ := and_split _ _ h0
  obtain ⟨h0, _c12⟩ := and_split _ _ h0
  obtain ⟨h0, _c11⟩ := and_split _ _ h0
  obtain ⟨h0, c10⟩ := and_split _ _ h0
  obtain ⟨h0, c9⟩ := and_split _ _ h0
  obtain ⟨h0, c8⟩ := and_split _ _ h0
  obtain ⟨h0, c7⟩ := and_split _ _ h0
  obtain ⟨h0, c6⟩ := and_split _ _ h0
  obtain ⟨h0, c5⟩ := and_split _ _ h0
  obtain ⟨h0, _c4⟩ := and_split _ _ h0
  obtain ⟨h0, _c3⟩ := and_split _ _ h0
  obtain ⟨h0, _c2⟩ := and_split _ _ h0
  obtain ⟨c0, _c1⟩ := and_split _ _ h0
  have r0 := realA_of_all x0 _ _ _ c0
  have r5 := realA_of_all x5 _ _ _ c5
  have r6 := realA_of_all x6 _ _ _ c6
  have r7 := realA_of_all x7 _ _ _ c7
  have r8 := realA_of_all x8 _ _ _ c8
  have r9 := realA_of_all x9 _ _ _ c9
  have r10 := realA_of_all x10 _ _ _ c10
  exact ⟨r0, r5, fun j => r6 (ix1 j), r7, fun j => r8 (ix1 j), r9, fun j => r10 (ix1 j)⟩

end Cert.Fin

end
-- ==== Proof.lean ====
/-
  A fused reasoning module — a two-layer rectified perceptron, eight-head self-attention over the 1024 rows with its
  output projection, and a second two-layer perceptron on the two results side by side, closed by a hyperbolic tangent —
  computed by one kernel with every operand resident, against the same network written with whole-array operations.

  At the ideal values (floats are extended reals, every operation exact) both programs compute the network of
  Proof/Spec.lean. They differ only in the attention stage: the kernel scales the query by ⅛ before the score product
  and normalises each head's weighted average AFTER the sum over keys, (∑ⱼ eⱼ vⱼ) · (1 / ∑ⱼ eⱼ); the reference divides the
  score product by 8, takes the row maximum once more against −∞, and normalises each weight BEFORE the sum,
  ∑ⱼ (eⱼ / ∑ⱼ eⱼ) vⱼ. On real numbers these agree (⅛ is the exact reciprocal of 8; eⱼ = exp (sⱼ − max s) are positive
  reals, so their sum is a nonzero real and multiplication distributes over the finite sum); on the extended reals
  they need the projections q, k, v to be real-valued, which the precondition gives: every entry of the input, of the
  three projection matrices and of their biases is finite, and an affine layer of real arrays is real.
  The other stages — affine layers as sums of products, rectifiers, the layer over the concatenation [patterns | attended]
  as the sum of its two column blocks — are the same sums in both programs.

  The kernel's side: Proof/KHeads.lean (one head), Proof/KLin.lean (the affine layers), Proof/KOut.lean (the body's term
  is the network), Proof/KValue.lean (the one block is the whole array; the host's slices and reshapes before the call).
  The reference's side: Proof/RefAtt.lean (its attention stage), Proof/RefLin.lean (its affine layers and the network).
  Proof/Algebra.lean joins the two arrangements of attention; Proof/Finite.lean reads the precondition.
-/
import proofs.«111305_g82875688944205_cont_9to1c4b_701_3_alg».proof.Defs
import proofs.«111305_g82875688944205_cont_9to1c4b_701_3_alg».proof.Proof.Gen.Kernel
import proofs.«111305_g82875688944205_cont_9to1c4b_701_3_alg».proof.Proof.Gen.Kernel.Skeleton
import proofs.«111305_g82875688944205_cont_9to1c4b_701_3_alg».proof.Proof.Gen.Kernel.Launch
import proofs.«111305_g82875688944205_cont_9to1c4b_701_3_alg».proof.Proof.Gen.Kernel.Points
import proofs.«111305_g82875688944205_cont_9to1c4b_701_3_alg».proof.Proof.Gen.Kernel.Frame
import proofs.«111305_g82875688944205_cont_9to1c4b_701_3_alg».proof.Proof.Gen.KernelIdeal
import proofs.«111305_g82875688944205_cont_9to1c4b_701_3_alg».proof.Proof.Gen.KernelIdeal.Skeleton
import proofs.«111305_g82875688944205_cont_9to1c4b_701_3_alg».proof.Proof.Gen.KernelIdeal.Launch
import proofs.«111305_g82875688944205_cont_9to1c4b_701_3_alg».proof.Proof.Gen.KernelIdeal.Points
import proofs.«111305_g82875688944205_cont_9to1c4b_701_3_alg».proof.Proof.Gen.KernelIdeal.Frame
import proofs.«111305_g82875688944205_cont_9to1c4b_701_3_alg».proof.Proof.Gen.ReferenceIdeal
import proofs.«111305_g82875688944205_cont_9to1c4b_701_3_alg».proof.Proof.Gen.Pre_finite_inputs
import proofs.«111305_g82875688944205_cont_9to1c4b_701_3_alg».proof.Proof.Gen.KernelIdeal.Value
import proofs.«111305_g82875688944205_cont_9to1c4b_701_3_alg».proof.Proof.KValue
import proofs.«111305_g82875688944205_cont_9to1c4b_701_3_alg».proof.Proof.RefRun
import proofs.«111305_g82875688944205_cont_9to1c4b_701_3_alg».proof.Proof.RefRead
import proofs.«111305_g82875688944205_cont_9to1c4b_701_3_alg».proof.Proof.RefAtt
import proofs.«111305_g82875688944205_cont_9to1c4b_701_3_alg».proof.Proof.RefLin
import proofs.«111305_g82875688944205_cont_9to1c4b_701_3_alg».proof.Proof.Algebra
import proofs.«111305_g82875688944205_cont_9to1c4b_701_3_alg».proof.Proof.Finite
import Idealize.ShloMosaic.Adequacy
import Idealize.ShloMosaic.Init

noncomputable section

namespace Cert.Proof

open Idealize.ShloMosaic Idealize.SL.Sem

/-- The word-level kernel terminates without a fault and leaves its arguments as they were. -/
theorem frame_k : @Cert.frame_Kernel Cert.Kernel.Gen.facts Cert.Pre_finite_inputs.Gen.facts :=
  fun m ρ _ => Cert.Kernel.Gen.frame m ρ

/-- So does the idealized kernel. -/
theorem frame_ki : @Cert.frame_KernelIdeal Cert.KernelIdeal.Gen.facts Cert.Pre_finite_inputs.Gen.facts :=
  fun m ρ _ => Cert.KernelIdeal.Gen.frame m ρ

/-- So does the reference: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.RunCopy.run (F := Ideal) m ρ)

/-- The ideal pass rewrote nothing. -/
theorem preserves : Cert.preserves_Kernel_KernelIdeal := trivial

/-- From memories agreeing on the arguments both idealized programs end with the network of the arguments: the kernel
    with attention normalised after the weighted sum, the reference before it; the precondition makes the projections
    real-valued, where the two arrangements agree. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.KV.out m c, Cert.KernelIdeal.KV.run m ρ, ?_⟩
  refine (θ_run Cert.ReferenceIdeal.defs _ _).mono (fun _ h c => ⟨(h c).1.trans ?_, (h c).2⟩)
    (Cert.ReferenceIdeal.RunCopy.run (F := Ideal) m' ρ')
  obtain ⟨a0, a1, a2, a3, a4, a5, a6, a7, a8, a9, a10, a11, a12, a13, a14, a15, a16⟩ := hagree c
  obtain ⟨r0, r5, r6, r7, r8, r9, r10⟩ := Cert.Fin.real_of_pre _ _ _ _ _ _ _ _ _ _ _ _ _ _ _ _ _ (hpre c)
  rw [Cert.ReferenceIdeal.ReadCopy.val_main_v67_eq,
    Cert.ReferenceIdeal.RL.ref_value _ _ _ _ _ _ _ _ _ _ _ _ _ _ _ _ _ (Cert.ReferenceIdeal.RA.att_ref _ _ _ _ _ _ _),
    a0, a1, a2, a3, a4, a5, a6, a7, a8, a9, a10, a11, a12, a13, a14, a15, a16]
  exact (Cert.Alg.body_eq _ _ _ _ _ _ _ _ _ _ _ _ _ _ _ _ _ _ r0 r5 r6 r7 r8 r9 r10).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
